-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x39 : Shape := ⟨3, ![256, 2048, 39]⟩
abbrev S195x78 : Shape := ⟨2, ![195, 78]⟩
abbrev S195 : Shape := ⟨1, ![195]⟩
abbrev S78x195 : Shape := ⟨2, ![78, 195]⟩
abbrev S78 : Shape := ⟨1, ![78]⟩
abbrev S1 : Shape := ⟨1, ![1]⟩
abbrev S_ : Shape := ⟨0, ![]⟩

class Facts : Prop where
  bcast_S_S256x2048x39 : S_.BroadcastsInDim S256x2048x39 (![] : Fin 0 → Fin S256x2048x39.rank)
  reducesTo_S256x2048x39_S_d0_1_2 : S256x2048x39.ReducesTo [0, 1, 2] S_
  h_S_ : 0 < S_.numel
  bcast_S_S195x78 : S_.BroadcastsInDim S195x78 (![] : Fin 0 → Fin S195x78.rank)
  reducesTo_S195x78_S_d0_1 : S195x78.ReducesTo [0, 1] S_
  bcast_S_S195 : S_.BroadcastsInDim S195 (![] : Fin 0 → Fin S195.rank)
  reducesTo_S195_S_d0 : S195.ReducesTo [0] S_
  bcast_S_S78x195 : S_.BroadcastsInDim S78x195 (![] : Fin 0 → Fin S78x195.rank)
  reducesTo_S78x195_S_d0_1 : S78x195.ReducesTo [0, 1] S_
  bcast_S_S78 : S_.BroadcastsInDim S78 (![] : Fin 0 → Fin S78.rank)
  reducesTo_S78_S_d0 : S78.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S78 .f32) (main_v48 : IVec S_ 1) (main_v49 : FVec F S78 .f32) (main_v50 : FVec F S78 .f32) : IVec S_ 1 :=
  let main_v51 : IVec S78 1 := cmpf .olt main_v49 main_v50
  let main_c_19 : IVec S_ 1 := constantI S_ 1 1#1
  let main_v52 : IVec S_ 1 := (fun x v => Host.reduce IntOp.andi x v reducesTo_S78_S_d0 h_S_) main_v51 main_c_19
  let main_v53 : IVec S_ 1 := andi main_v48 main_v52
  let main_v54 : FVec F S78 .f32 := Host.absf main_arg11
  let main_cst_20 : FVec F S_ .f32 := constant S_ .f32 0x7F800000#32
  let main_v55 : FVec F S78 .f32 := broadcastInDim S78 ![] bcast_S_S78 main_cst_20
  let main_v56 : IVec S78 1 := cmpf .olt main_v54 main_v55
  let main_c_21 : IVec S_ 1 := constantI S_ 1 1#1
  let main_v57 : IVec S_ 1 := (fun x v => Host.reduce IntOp.andi x v reducesTo_S78_S_d0 h_S_) main_v56 main_c_21
  let main_v58 : IVec S_ 1 := andi main_v53 main_v57
  main_v58

def fn_part2 {F : FTy → Type} [FloatOps F] (main_arg7 : FVec F S1 .f32) (main_arg8 : FVec F S195 .f32) (main_arg9 : FVec F S195 .f32) (main_arg10 : FVec F S78 .f32) (main_arg11 : FVec F S78 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S195 .f32 := Host.absf main_arg8
  let main_cst_14 : FVec F S_ .f32 := constant S_ .f32 0x7F800000#32
  let main_v40 : FVec F S195 .f32 := broadcastInDim S195 ![] bcast_S_S195 main_cst_14
  let main_v41 : IVec S195 1 := cmpf .olt main_v39 main_v40
  let main_c_15 : IVec S_ 1 := constantI S_ 1 1#1
  let main_v42 : IVec S_ 1 := (fun x v => Host.reduce IntOp.andi x v reducesTo_S195_S_d0 h_S_) main_v41 main_c_15
  let main_v43 : IVec S_ 1 := andi main_v38 main_v42
  let main_v44 : FVec F S195 .f32 := Host.absf main_arg9
  let main_cst_16 : FVec F S_ .f32 := constant S_ .f32 0x7F800000#32
  let main_v45 : FVec F S195 .f32 := broadcastInDim S195 ![] bcast_S_S195 main_cst_16
  let main_v46 : IVec S195 1 := cmpf .olt main_v44 main_v45
  let main_c_17 : IVec S_ 1 := constantI S_ 1 1#1
  let main_v47 : IVec S_ 1 := (fun x v => Host.reduce IntOp.andi x v reducesTo_S195_S_d0 h_S_) main_v46 main_c_17
  let main_v48 : IVec S_ 1 := andi main_v43 main_v47
  let main_v49 : FVec F S78 .f32 := Host.absf main_arg10
  let main_cst_18 : FVec F S_ .f32 := constant S_ .f32 0x7F800000#32
  let main_v50 : FVec F S78 .f32 := broadcastInDim S78 ![] bcast_S_S78 main_cst_18
  fn_part3 (F := F) main_arg11 main_v48 main_v49 main_v50

def fn_part1 {F : FTy → Type} [FloatOps F] (main_arg4 : FVec F S78x195 .f32) (main_arg5 : FVec F S78 .f32) (main_arg6 : FVec F S1 .f32) (main_arg7 : FVec F S1 .f32) (main_arg8 : FVec F S195 .f32) (main_arg9 : FVec F S195 .f32) (main_arg10 : FVec F S78 .f32) (main_arg11 : FVec F S78 .f32) (main_v13 : IVec S_ 1) (main_v16 : IVec S195 1) : IVec S_ 1 :=
  let main_c_5 : IVec S_ 1 := constantI S_ 1 1#1
  let main_v17 : IVec S_ 1 := (fun x v => Host.reduce IntOp.andi x v reducesTo_S195_S_d0 h_S_) main_v16 main_c_5
  let main_v18 : IVec S_ 1 := andi main_v13 main_v17
  let main_v19 : FVec F S78x195 .f32 := Host.absf main_arg4
  let main_cst_6 : FVec F S_ .f32 := constant S_ .f32 0x7F800000#32
  let main_v20 : FVec F S78x195 .f32 := broadcastInDim S78x195 ![] bcast_S_S78x195 main_cst_6
  let main_v21 : IVec S78x195 1 := cmpf .olt main_v19 main_v20
  let main_c_7 : IVec S_ 1 := constantI S_ 1 1#1
  let main_v22 : IVec S_ 1 := (fun x v => Host.reduce IntOp.andi x v reducesTo_S78x195_S_d0_1 h_S_) main_v21 main_c_7
  let main_v23 : IVec S_ 1 := andi main_v18 main_v22
  let main_v24 : FVec F S78 .f32 := Host.absf main_arg5
  let main_cst_8 : FVec F S_ .f32 := constant S_ .f32 0x7F800000#32
  let main_v25 : FVec F S78 .f32 := broadcastInDim S78 ![] bcast_S_S78 main_cst_8
  let main_v26 : IVec S78 1 := cmpf .olt main_v24 main_v25
  let main_c_9 : IVec S_ 1 := constantI S_ 1 1#1
  let main_v27 : IVec S_ 1 := (fun x v => Host.reduce IntOp.andi x v reducesTo_S78_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x2048x39 .f32) (main_arg1 : FVec F S256x2048x39 .f32) (main_arg2 : FVec F S195x78 .f32) (main_arg3 : FVec F S195 .f32) (main_arg4 : FVec F S78x195 .f32) (main_arg5 : FVec F S78 .f32) (main_arg6 : FVec F S1 .f32) (main_arg7 : FVec F S1 .f32) (main_arg8 : FVec F S195 .f32) (main_arg9 : FVec F S195 .f32) (main_arg10 : FVec F S78 .f32) (main_arg11 : FVec F S78 .f32) : IVec S_ 1 :=
  let main_v0 : FVec F S256x2048x39 .f32 := Host.absf main_arg0
  let main_cst : FVec F S_ .f32 := constant S_ .f32 0x7F800000#32
  let main_v1 : FVec F S256x2048x39 .f32 := broadcastInDim S256x2048x39 ![] bcast_S_S256x2048x39 main_cst
  let main_v2 : IVec S256x2048x39 1 := cmpf .olt main_v0 main_v1
  let main_c : IVec S_ 1 := constantI S_ 1 1#1
  let main_v3 : IVec S_ 1 := (fun x v => Host.reduce IntOp.andi x v reducesTo_S256x2048x39_S_d0_1_2 h_S_) main_v2 main_c
  let main_v4 : FVec F S256x2048x39 .f32 := Host.absf main_arg1
  let main_cst_0 : FVec F S_ .f32 := constant S_ .f32 0x7F800000#32
  let main_v5 : FVec F S256x2048x39 .f32 := broadcastInDim S256x2048x39 ![] bcast_S_S256x2048x39 main_cst_0
  let main_v6 : IVec S256x2048x39 1 := cmpf .olt main_v4 main_v5
  let main_c_1 : IVec S_ 1 := constantI S_ 1 1#1
  let main_v7 : IVec S_ 1 := (fun x v => Host.reduce IntOp.andi x v reducesTo_S256x2048x39_S_d0_1_2 h_S_) main_v6 main_c_1
  let main_v8 : IVec S_ 1 := andi main_v3 main_v7
  let main_v9 : FVec F S195x78 .f32 := Host.absf main_arg2
  let main_cst_2 : FVec F S_ .f32 := constant S_ .f32 0x7F800000#32
  let main_v10 : FVec F S195x78 .f32 := broadcastInDim S195x78 ![] bcast_S_S195x78 main_cst_2
  let main_v11 : IVec S195x78 1 := cmpf .olt main_v9 main_v10
  let main_c_3 : IVec S_ 1 := constantI S_ 1 1#1
  let main_v12 : IVec S_ 1 := (fun x v => Host.reduce IntOp.andi x v reducesTo_S195x78_S_d0_1 h_S_) main_v11 main_c_3
  let main_v13 : IVec S_ 1 := andi main_v8 main_v12
  let main_v14 : FVec F S195 .f32 := Host.absf main_arg3
  let main_cst_4 : FVec F S_ .f32 := constant S_ .f32 0x7F800000#32
  let main_v15 : FVec F S195 .f32 := broadcastInDim S195 ![] bcast_S_S195 main_cst_4
  let main_v16 : IVec S195 1 := cmpf .olt main_v14 main_v15
  fn_part1 (F := F) main_arg4 main_arg5 main_arg6 main_arg7 main_arg8 main_arg9 main_arg10 main_arg11 main_v13 main_v16
-- ==== Kernel.lean ====
abbrev S256x2048x39 : Shape := ⟨3, ![256, 2048, 39]⟩
abbrev S195x78 : Shape := ⟨2, ![195, 78]⟩
abbrev S195 : Shape := ⟨1, ![195]⟩
abbrev S78x195 : Shape := ⟨2, ![78, 195]⟩
abbrev S78 : Shape := ⟨1, ![78]⟩
abbrev S1 : Shape := ⟨1, ![1]⟩
abbrev S524288x39 : Shape := ⟨2, ![524288, 39]⟩
abbrev S1x195 : Shape := ⟨2, ![1, 195]⟩
abbrev S1x78 : Shape := ⟨2, ![1, 78]⟩
abbrev S1x1 : Shape := ⟨2, ![1, 1]⟩
abbrev S524288x78 : Shape := ⟨2, ![524288, 78]⟩
abbrev S2048x39 : Shape := ⟨2, ![2048, 39]⟩
abbrev S2048x78 : Shape := ⟨2, ![2048, 78]⟩
abbrev S2048x195 : Shape := ⟨2, ![2048, 195]⟩
abbrev S2048 : Shape := ⟨1, ![2048]⟩
abbrev S2048x1 : Shape := ⟨2, ![2048, 1]⟩
abbrev S256x2048x78 : Shape := ⟨3, ![256, 2048, 78]⟩

abbrev nBuf : Space → Nat
  | .hbm => 30
  | .vmem => 16
  | .smem => 0
  | _ => 0

abbrev bufTy : (tb : Table) → Fin (tcTables nBuf tb) → BufTy
  | .hbm, ⟨0, _⟩ => ⟨S256x2048x39, .f32⟩
  | .hbm, ⟨1, _⟩ => ⟨S256x2048x39, .f32⟩
  | .hbm, ⟨2, _⟩ => ⟨S195x78, .f32⟩
  | .hbm, ⟨3, _⟩ => ⟨S195, .f32⟩
  | .hbm, ⟨4, _⟩ => ⟨S78x195, .f32⟩
  | .hbm, ⟨5, _⟩ => ⟨S78, .f32⟩
  | .hbm, ⟨6, _⟩ => ⟨S1, .f32⟩
  | .hbm, ⟨7, _⟩ => ⟨S1, .f32⟩
  | .hbm, ⟨8, _⟩ => ⟨S195, .f32⟩
  | .hbm, ⟨9, _⟩ => ⟨S195, .f32⟩
  | .hbm, ⟨10, _⟩ => ⟨S78, .f32⟩
  | .hbm, ⟨11, _⟩ => ⟨S78, .f32⟩
  | .hbm, ⟨12, _⟩ => ⟨S524288x39, .f32⟩
  | .hbm, ⟨13, _⟩ => ⟨S524288x39, .f32⟩
  | .hbm, ⟨14, _⟩ => ⟨S78x195, .f32⟩
  | .hbm, ⟨15, _⟩ => ⟨S78x195, .bf16⟩
  | .hbm, ⟨16, _⟩ => ⟨S195x78, .f32⟩
  | .hbm, ⟨17, _⟩ => ⟨S195x78, .bf16⟩
  | .hbm, ⟨18, _⟩ => ⟨S1x195, .f32⟩
  | .hbm, ⟨19, _⟩ => ⟨S1x78, .f32⟩
  | .hbm, ⟨20, _⟩ => ⟨S1x1, .f32⟩
  | .hbm, ⟨21, _⟩ => ⟨S1x1, .f32⟩
  | .hbm, ⟨22, _⟩ => ⟨S1x195, .f32⟩
  | .hbm, ⟨23, _⟩ => ⟨S1x195, .f32⟩
  | .hbm, ⟨24, _⟩ => ⟨S1x78, .f32⟩
  | .hbm, ⟨25, _⟩ => ⟨S1x78, .f32⟩
  | .hbm, ⟨26, _⟩ => ⟨S524288x78, .f32⟩
  | .hbm, ⟨27, _⟩ => ⟨S256x2048x78, .f32⟩
  | .hbm, ⟨28, _⟩ => ⟨S256x2048x39, .f32⟩
  | .hbm, ⟨29, _⟩ => ⟨S256x2048x39, .f32⟩
  | .local _ .vmem, ⟨0, _⟩ => ⟨S2048x39, .f32⟩
  | .local _ .vmem, ⟨1, _⟩ => ⟨S2048x39, .f32⟩
  | .local _ .vmem, ⟨2, _⟩ => ⟨S2048x39, .f32⟩
  | .local _ .vmem, ⟨3, _⟩ => ⟨S2048x39, .f32⟩
  | .local _ .vmem, ⟨4, _⟩ => ⟨S78x195, .bf16⟩
  | .local _ .vmem, ⟨5, _⟩ => ⟨S1x195, .f32⟩
  | .local _ .vmem, ⟨6, _⟩ => ⟨S195x78, .bf16⟩
  | .local _ .vmem, ⟨7, _⟩ => ⟨S1x78, .f32⟩
  | .local _ .vmem, ⟨8, _⟩ => ⟨S1x1, .f32⟩
  | .local _ .vmem, ⟨9, _⟩ => ⟨S1x1, .f32⟩
  | .local _ .vmem, ⟨10, _⟩ => ⟨S1x195, .f32⟩
  | .local _ .vmem, ⟨11, _⟩ => ⟨S1x195, .f32⟩
  | .local _ .vmem, ⟨12, _⟩ => ⟨S1x78, .f32⟩
  | .local _ .vmem, ⟨13, _⟩ => ⟨S1x78, .f32⟩
  | .local _ .vmem, ⟨14, _⟩ => ⟨S2048x78, .f32⟩
  | .local _ .vmem, ⟨15, _⟩ => ⟨S2048x78, .f32⟩
  | _, _ => ⟨S256x2048x39, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x39 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x39 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S78x195 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x195 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S195x78 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x78 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x195 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x195 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x78 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x78 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x78 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S256x2048x39_S524288x39 : S256x2048x39.ShapeCasts S524288x39
  transposes_S195x78_S78x195_1_0 : S195x78.Transposes [1, 0] S78x195
  bitsLt_bf16_f32 : FTy.bits .bf16 < FTy.bits .f32
  transposes_S78x195_S195x78_1_0 : S78x195.Transposes [1, 0] S195x78
  shapeCasts_S195_S1x195 : S195.ShapeCasts S1x195
  shapeCasts_S78_S1x78 : S78.ShapeCasts S1x78
  shapeCasts_S1_S1x1 : S1.ShapeCasts S1x1
  inb_S2048x39_S2048x39_0_0 : ∀ a, (![0, 0] : Fin 2 → Nat) a + S2048x39.size a ≤ S2048x39.size a
  h_S2048x39 : 0 < S2048x39.numel
  shapeCasts_S2048x39_S2048x39 : S2048x39.ShapeCasts S2048x39
  concatenates_S2048x39_S2048x39_S2048x78_d1 : Shape.Concatenates [S2048x39, S2048x39] S2048x78 1
  inb_S78x195_S78x195_0_0 : ∀ a, (![0, 0] : Fin 2 → Nat) a + S78x195.size a ≤ S78x195.size a
  h_S78x195 : 0 < S78x195.numel
  shapeCasts_S78x195_S78x195 : S78x195.ShapeCasts S78x195
  inb_S1x195_S1x195_0_0 : ∀ a, (![0, 0] : Fin 2 → Nat) a + S1x195.size a ≤ S1x195.size a
  h_S1x195 : 0 < S1x195.numel
  shapeCasts_S1x195_S1x195 : S1x195.ShapeCasts S1x195
  broadcasts_S1x195_S2048x195 : S1x195.Broadcasts S2048x195
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x195 : S1x1.Broadcasts S2048x195
  reduces_S2048x195_S2048 : S2048x195.Reduces [1] S2048
  shapeCasts_S2048_S2048x1 : S2048.ShapeCasts S2048x1
  broadcasts_S2048x1_S2048x195 : S2048x1.Broadcasts S2048x195
  inb_S195x78_S195x78_0_0 : ∀ a, (![0, 0] : Fin 2 → Nat) a + S195x78.size a ≤ S195x78.size a
  h_S195x78 : 0 < S195x78.numel
  shapeCasts_S195x78_S195x78 : S195x78.ShapeCasts S195x78
  inb_S1x78_S1x78_0_0 : ∀ a, (![0, 0] : Fin 2 → Nat) a + S1x78.size a ≤ S1x78.size a
  h_S1x78 : 0 < S1x78.numel
  shapeCasts_S1x78_S1x78 : S1x78.ShapeCasts S1x78
  broadcasts_S1x78_S2048x78 : S1x78.Broadcasts S2048x78
  broadcasts_S1x1_S2048x78 : S1x1.Broadcasts S2048x78
  reduces_S2048x78_S2048 : S2048x78.Reduces [1] S2048
  broadcasts_S2048x1_S2048x78 : S2048x1.Broadcasts S2048x78
  inb_S2048x78_S2048x78_0_0 : ∀ a, (![0, 0] : Fin 2 → Nat) a + S2048x78.size a ≤ S2048x78.size a
  h_S2048x78 : 0 < S2048x78.numel
  shapeCasts_S524288x78_S256x2048x78 : S524288x78.ShapeCasts S256x2048x78
  slices_S256x2048x78_S256x2048x39_0_0_0 : S256x2048x78.Slices ![0, 0, 0] S256x2048x39
  slices_S256x2048x78_S256x2048x39_0_0_39 : S256x2048x78.Slices ![0, 0, 39] S256x2048x39
  dot_S2048x78_S78x195_S2048x195_1_0_0_1_n_n_wf : DotDims.WF S2048x78 S78x195 S2048x195 [1] [0] [0] [1] [] []
  dot_S2048x195_S195x78_S2048x78_1_0_0_1_n_n_wf : DotDims.WF S2048x195 S195x78 S2048x78 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x39.size a ≤ S524288x39.size a
  hwx0_0 : ∀ i : grid0.Coords, EltTy.bits .f32 = 32 ∨ (Rect.block (s := S524288x39) S2048x39.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x39.size a ≤ S524288x39.size a
  hwx0_1 : ∀ i : grid0.Coords, EltTy.bits .f32 = 32 ∨ (Rect.block (s := S524288x39) S2048x39.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S78x195.size a ≤ S78x195.size a
  hwx0_2 : ∀ i : grid0.Coords, EltTy.bits .bf16 = 32 ∨ (Rect.block (s := S78x195) S78x195.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x195.size a ≤ S1x195.size a
  hwx0_3 : ∀ i : grid0.Coords, EltTy.bits .f32 = 32 ∨ (Rect.block (s := S1x195) S1x195.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S195x78.size a ≤ S195x78.size a
  hwx0_4 : ∀ i : grid0.Coords, EltTy.bits .bf16 = 32 ∨ (Rect.block (s := S195x78) S195x78.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x78.size a ≤ S1x78.size a
  hwx0_5 : ∀ i : grid0.Coords, EltTy.bits .f32 = 32 ∨ (Rect.block (s := S1x78) S1x78.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x195.size a ≤ S1x195.size a
  hwx0_8 : ∀ i : grid0.Coords, EltTy.bits .f32 = 32 ∨ (Rect.block (s := S1x195) S1x195.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x195.size a ≤ S1x195.size a
  hwx0_9 : ∀ i : grid0.Coords, EltTy.bits .f32 = 32 ∨ (Rect.block (s := S1x195) S1x195.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x78.size a ≤ S1x78.size a
  hwx0_10 : ∀ i : grid0.Coords, EltTy.bits .f32 = 32 ∨ (Rect.block (s := S1x78) S1x78.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x78.size a ≤ S1x78.size a
  hwx0_11 : ∀ i : grid0.Coords, EltTy.bits .f32 = 32 ∨ (Rect.block (s := S1x78) S1x78.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x78.size a ≤ S524288x78.size a
  hwx0_12 : ∀ i : grid0.Coords, EltTy.bits .f32 = 32 ∨ (Rect.block (s := S524288x78) S2048x78.size (cc0_transform_12 i) (hinb0_12 i)).WholeWords (EltTy.packing .f32)

variable [Facts₀]

def dot_S2048x78_S78x195_S2048x195_1_0_0_1_n_n : DotDims S2048x78 S78x195 S2048x195 where
  lhsContracting := [1]
  rhsContracting := [0]
  lhsNonContracting := [0]
  rhsNonContracting := [1]
  lhsBatch := []
  rhsBatch := []
  wf := dot_S2048x78_S78x195_S2048x195_1_0_0_1_n_n_wf
def dot_S2048x195_S195x78_S2048x78_1_0_0_1_n_n : DotDims S2048x195 S195x78 S2048x78 where
  lhsContracting := [1]
  rhsContracting := [0]
  lhsNonContracting := [0]
  rhsNonContracting := [1]
  lhsBatch := []
  rhsBatch := []
  wf := dot_S2048x195_S195x78_S2048x78_1_0_0_1_n_n_wf

abbrev win0_0 : Pipeline.Window sig grid0 :=
  Pipeline.Window.ofSpec (Memref.whole main_v0) S2048x39.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x39.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S78x195.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x195.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S195x78.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x78.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x195.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x195.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x78.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x78.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S2048x78.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x2048x39 : Shape := ⟨3, ![256, 2048, 39]⟩
abbrev S195x78 : Shape := ⟨2, ![195, 78]⟩
abbrev S195 : Shape := ⟨1, ![195]⟩
abbrev S78x195 : Shape := ⟨2, ![78, 195]⟩
abbrev S78 : Shape := ⟨1, ![78]⟩
abbrev S1 : Shape := ⟨1, ![1]⟩
abbrev S256x2048x78 : Shape := ⟨3, ![256, 2048, 78]⟩
abbrev S256x2048x195 : Shape := ⟨3, ![256, 2048, 195]⟩
abbrev S1x1x195 : Shape := ⟨3, ![1, 1, 195]⟩
abbrev S_ : Shape := ⟨0, ![]⟩
abbrev S1x1x1 : Shape := ⟨3, ![1, 1, 1]⟩
abbrev S256x2048 : Shape := ⟨2, ![256, 2048]⟩
abbrev S256x2048x1 : Shape := ⟨3, ![256, 2048, 1]⟩
abbrev S1x1x78 : Shape := ⟨3, ![1, 1, 78]⟩

abbrev nBuf : Space → Nat
  | .hbm => 96
  | .vmem => 0
  | .smem => 0
  | _ => 0

abbrev bufTy : (tb : Table) → Fin (tcTables nBuf tb) → BufTy
  | .hbm, ⟨0, _⟩ => ⟨S256x2048x39, .f32⟩
  | .hbm, ⟨1, _⟩ => ⟨S256x2048x39, .f32⟩
  | .hbm, ⟨2, _⟩ => ⟨S195x78, .f32⟩
  | .hbm, ⟨3, _⟩ => ⟨S195, .f32⟩
  | .hbm, ⟨4, _⟩ => ⟨S78x195, .f32⟩
  | .hbm, ⟨5, _⟩ => ⟨S78, .f32⟩
  | .hbm, ⟨6, _⟩ => ⟨S1, .f32⟩
  | .hbm, ⟨7, _⟩ => ⟨S1, .f32⟩
  | .hbm, ⟨8, _⟩ => ⟨S195, .f32⟩
  | .hbm, ⟨9, _⟩ => ⟨S195, .f32⟩
  | .hbm, ⟨10, _⟩ => ⟨S78, .f32⟩
  | .hbm, ⟨11, _⟩ => ⟨S78, .f32⟩
  | .hbm, ⟨12, _⟩ => ⟨S256x2048x78, .f32⟩
  | .hbm, ⟨13, _⟩ => ⟨S256x2048x195, .f32⟩
  | .hbm, ⟨14, _⟩ => ⟨S1x1x195, .f32⟩
  | .hbm, ⟨15, _⟩ => ⟨S256x2048x195, .f32⟩
  | .hbm, ⟨16, _⟩ => ⟨S256x2048x195, .f32⟩
  | .hbm, ⟨17, _⟩ => ⟨S_, .f32⟩
  | .hbm, ⟨18, _⟩ => ⟨S256x2048x195, .f32⟩
  | .hbm, ⟨19, _⟩ => ⟨S256x2048x195, .i1⟩
  | .hbm, ⟨20, _⟩ => ⟨S1x1x1, .f32⟩
  | .hbm, ⟨21, _⟩ => ⟨S256x2048x195, .f32⟩
  | .hbm, ⟨22, _⟩ => ⟨S256x2048x195, .f32⟩
  | .hbm, ⟨23, _⟩ => ⟨S256x2048x195, .f32⟩
  | .hbm, ⟨24, _⟩ => ⟨S_, .f32⟩
  | .hbm, ⟨25, _⟩ => ⟨S256x2048, .f32⟩
  | .hbm, ⟨26, _⟩ => ⟨S256x2048x1, .f32⟩
  | .hbm, ⟨27, _⟩ => ⟨S_, .f32⟩
  | .hbm, ⟨28, _⟩ => ⟨S256x2048x1, .f32⟩
  | .hbm, ⟨29, _⟩ => ⟨S256x2048x1, .f32⟩
  | .hbm, ⟨30, _⟩ => ⟨S256x2048x195, .f32⟩
  | .hbm, ⟨31, _⟩ => ⟨S256x2048x195, .f32⟩
  | .hbm, ⟨32, _⟩ => ⟨S256x2048x195, .f32⟩
  | .hbm, ⟨33, _⟩ => ⟨S_, .f32⟩
  | .hbm, ⟨34, _⟩ => ⟨S256x2048, .f32⟩
  | .hbm, ⟨35, _⟩ => ⟨S256x2048x1, .f32⟩
  | .hbm, ⟨36, _⟩ => ⟨S_, .f32⟩
  | .hbm, ⟨37, _⟩ => ⟨S256x2048x1, .f32⟩
  | .hbm, ⟨38, _⟩ => ⟨S256x2048x1, .f32⟩
  | .hbm, ⟨39, _⟩ => ⟨S256x2048x195, .f32⟩
  | .hbm, ⟨40, _⟩ => ⟨S256x2048x195, .f32⟩
  | .hbm, ⟨41, _⟩ => ⟨S_, .f32⟩
  | .hbm, ⟨42, _⟩ => ⟨S256x2048x1, .f32⟩
  | .hbm, ⟨43, _⟩ => ⟨S256x2048x1, .f32⟩
  | .hbm, ⟨44, _⟩ => ⟨S256x2048x1, .f32⟩
  | .hbm, ⟨45, _⟩ => ⟨S256x2048x195, .f32⟩
  | .hbm, ⟨46, _⟩ => ⟨S256x2048x195, .f32⟩
  | .hbm, ⟨47, _⟩ => ⟨S1x1x195, .f32⟩
  | .hbm, ⟨48, _⟩ => ⟨S256x2048x195, .f32⟩
  | .hbm, ⟨49, _⟩ => ⟨S256x2048x195, .f32⟩
  | .hbm, ⟨50, _⟩ => ⟨S1x1x195, .f32⟩
  | .hbm, ⟨51, _⟩ => ⟨S256x2048x195, .f32⟩
  | .hbm, ⟨52, _⟩ => ⟨S256x2048x195, .f32⟩
  | .hbm, ⟨53, _⟩ => ⟨S256x2048x78, .f32⟩
  | .hbm, ⟨54, _⟩ => ⟨S1x1x78, .f32⟩
  | .hbm, ⟨55, _⟩ => ⟨S256x2048x78, .f32⟩
  | .hbm, ⟨56, _⟩ => ⟨S256x2048x78, .f32⟩
  | .hbm, ⟨57, _⟩ => ⟨S_, .f32⟩
  | .hbm, ⟨58, _⟩ => ⟨S256x2048x78, .f32⟩
  | .hbm, ⟨59, _⟩ => ⟨S256x2048x78, .i1⟩
  | .hbm, ⟨60, _⟩ => ⟨S1x1x1, .f32⟩
  | .hbm, ⟨61, _⟩ => ⟨S256x2048x78, .f32⟩
  | .hbm, ⟨62, _⟩ => ⟨S256x2048x78, .f32⟩
  | .hbm, ⟨63, _⟩ => ⟨S256x2048x78, .f32⟩
  | .hbm, ⟨64, _⟩ => ⟨S_, .f32⟩
  | .hbm, ⟨65, _⟩ => ⟨S256x2048, .f32⟩
  | .hbm, ⟨66, _⟩ => ⟨S256x2048x1, .f32⟩
  | .hbm, ⟨67, _⟩ => ⟨S_, .f32⟩
  | .hbm, ⟨68, _⟩ => ⟨S256x2048x1, .f32⟩
  | .hbm, ⟨69, _⟩ => ⟨S256x2048x1, .f32⟩
  | .hbm, ⟨70, _⟩ => ⟨S256x2048x78, .f32⟩
  | .hbm, ⟨71, _⟩ => ⟨S256x2048x78, .f32⟩
  | .hbm, ⟨72, _⟩ => ⟨S256x2048x78, .f32⟩
  | .hbm, ⟨73, _⟩ => ⟨S_, .f32⟩
  | .hbm, ⟨74, _⟩ => ⟨S256x2048, .f32⟩
  | .hbm, ⟨75, _⟩ => ⟨S256x2048x1, .f32⟩
  | .hbm, ⟨76, _⟩ => ⟨S_, .f32⟩
  | .hbm, ⟨77, _⟩ => ⟨S256x2048x1, .f32⟩
  | .hbm, ⟨78, _⟩ => ⟨S256x2048x1, .f32⟩
  | .hbm, ⟨79, _⟩ => ⟨S256x2048x78, .f32⟩
  | .hbm, ⟨80, _⟩ => ⟨S256x2048x78, .f32⟩
  | .hbm, ⟨81, _⟩ => ⟨S_, .f32⟩
  | .hbm, ⟨82, _⟩ => ⟨S256x2048x1, .f32⟩
  | .hbm, ⟨83, _⟩ => ⟨S256x2048x1, .f32⟩
  | .hbm, ⟨84, _⟩ => ⟨S256x2048x1, .f32⟩
  | .hbm, ⟨85, _⟩ => ⟨S256x2048x78, .f32⟩
  | .hbm, ⟨86, _⟩ => ⟨S256x2048x78, .f32⟩
  | .hbm, ⟨87, _⟩ => ⟨S1x1x78, .f32⟩
  | .hbm, ⟨88, _⟩ => ⟨S256x2048x78, .f32⟩
  | .hbm, ⟨89, _⟩ => ⟨S256x2048x78, .f32⟩
  | .hbm, ⟨90, _⟩ => ⟨S1x1x78, .f32⟩
  | .hbm, ⟨91, _⟩ => ⟨S256x2048x78, .f32⟩
  | .hbm, ⟨92, _⟩ => ⟨S256x2048x78, .f32⟩
  | .hbm, ⟨93, _⟩ => ⟨S256x2048x78, .f32⟩
  | .hbm, ⟨94, _⟩ => ⟨S256x2048x39, .f32⟩
  | .hbm, ⟨95, _⟩ => ⟨S256x2048x39, .f32⟩
  | _, _ => ⟨S256x2048x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  concatenates_S256x2048x39_S256x2048x39_S256x2048x78_d2 : Shape.Concatenates [S256x2048x39, S256x2048x39] S256x2048x78 2
  bcast_S195_S1x1x195_2 : S195.BroadcastsInDim S1x1x195 (![2] : Fin 1 → Fin S1x1x195.rank)
  bcast_S1x1x195_S256x2048x195_0_1_2 : S1x1x195.BroadcastsInDim S256x2048x195 (![0, 1, 2] : Fin 3 → Fin S256x2048x195.rank)
  bcast_S_S256x2048x195 : S_.BroadcastsInDim S256x2048x195 (![] : Fin 0 → Fin S256x2048x195.rank)
  bcast_S1_S1x1x1_2 : S1.BroadcastsInDim S1x1x1 (![2] : Fin 1 → Fin S1x1x1.rank)
  bcast_S1x1x1_S256x2048x195_0_1_2 : S1x1x1.BroadcastsInDim S256x2048x195 (![0, 1, 2] : Fin 3 → Fin S256x2048x195.rank)
  reducesTo_S256x2048x195_S256x2048_d2 : S256x2048x195.ReducesTo [2] S256x2048
  h_S_ : 0 < S_.numel
  bcast_S256x2048_S256x2048x1_0_1 : S256x2048.BroadcastsInDim S256x2048x1 (![0, 1] : Fin 2 → Fin S256x2048x1.rank)
  bcast_S_S256x2048x1 : S_.BroadcastsInDim S256x2048x1 (![] : Fin 0 → Fin S256x2048x1.rank)
  bcast_S256x2048x1_S256x2048x195_0_1_2 : S256x2048x1.BroadcastsInDim S256x2048x195 (![0, 1, 2] : Fin 3 → Fin S256x2048x195.rank)
  bcast_S78_S1x1x78_2 : S78.BroadcastsInDim S1x1x78 (![2] : Fin 1 → Fin S1x1x78.rank)
  bcast_S1x1x78_S256x2048x78_0_1_2 : S1x1x78.BroadcastsInDim S256x2048x78 (![0, 1, 2] : Fin 3 → Fin S256x2048x78.rank)
  bcast_S_S256x2048x78 : S_.BroadcastsInDim S256x2048x78 (![] : Fin 0 → Fin S256x2048x78.rank)
  bcast_S1x1x1_S256x2048x78_0_1_2 : S1x1x1.BroadcastsInDim S256x2048x78 (![0, 1, 2] : Fin 3 → Fin S256x2048x78.rank)
  reducesTo_S256x2048x78_S256x2048_d2 : S256x2048x78.ReducesTo [2] S256x2048
  bcast_S256x2048x1_S256x2048x78_0_1_2 : S256x2048x1.BroadcastsInDim S256x2048x78 (![0, 1, 2] : Fin 3 → Fin S256x2048x78.rank)
  slices_S256x2048x78_S256x2048x39_0_0_0 : S256x2048x78.Slices ![0, 0, 0] S256x2048x39
  slices_S256x2048x78_S256x2048x39_0_0_39 : S256x2048x78.Slices ![0, 0, 39] S256x2048x39
  dot_S256x2048x78_S195x78_S256x2048x195_2_1_01_0_n_n_wf : DotDims.WF S256x2048x78 S195x78 S256x2048x195 [2] [1] [0, 1] [0] [] []
  dot_S256x2048x195_S78x195_S256x2048x78_2_1_01_0_n_n_wf : DotDims.WF S256x2048x195 S78x195 S256x2048x78 [2] [1] [0, 1] [0] [] []

variable [Facts₀]

def dot_S256x2048x78_S195x78_S256x2048x195_2_1_01_0_n_n : DotDims S256x2048x78 S195x78 S256x2048x195 where
  lhsContracting := [2]
  rhsContracting := [1]
  lhsNonContracting := [0, 1]
  rhsNonContracting := [0]
  lhsBatch := []
  rhsBatch := []
  wf := dot_S256x2048x78_S195x78_S256x2048x195_2_1_01_0_n_n_wf
def dot_S256x2048x195_S78x195_S256x2048x78_2_1_01_0_n_n : DotDims S256x2048x195 S78x195 S256x2048x78 where
  lhsContracting := [2]
  rhsContracting := [1]
  lhsNonContracting := [0, 1]
  rhsNonContracting := [0]
  lhsBatch := []
  rhsBatch := []
  wf := dot_S256x2048x195_S78x195_S256x2048x78_2_1_01_0_n_n_wf

class Facts : Prop extends Facts₀ where

variable [Facts]
-- ==== Proof.RowNet.lean ====
/-
  One token's row through the network, on extended reals.

  A row u of 78 numbers is sent through an affine map to 195 numbers, a leaky rectifier, and a normalisation of the
  row by its own mean and variance (scaled and shifted entry by entry); then through an affine map back to 78 numbers,
  the rectifier and the normalisation again; and u itself is added to the result.

  The normalisation is spelt in two ways: the centred entry TIMES the reciprocal square root of the variance plus a
  floor, or the centred entry DIVIDED BY the square root of the same number. The variance is a sum of squares over a
  positive count and the floor is positive, so the number under the root is positive or +∞, and there the two
  spellings agree on every extended real: no finiteness of the inputs is needed.
-/
import Idealize.ShloMosaic.PureOps.Ideal
import Idealize.ShloMosaic.PureOps.Ideal.Laws
import Idealize.ShloMosaic.Lib.ValueIdx

noncomputable section

open scoped BigOperators

namespace RowNet

open Idealize.ShloMosaic

variable {k n : ℕ}

/-! ## The pieces -/

/-- The leaky rectifier at one entry: h itself where h ≥ z, and a·h elsewhere. -/
def leaky (z a h : EReal) : EReal := Scalar.select (Ideal.cmp .oge h z) h (a * h)

/-- Entry j of a row less the row's mean (its sum over the count c). -/
def centred (c : EReal) (v : Fin k → EReal) (j : Fin k) : EReal := v j - Ideal.div (∑ i, v i) c

/-- The row's variance (the mean of the squares of the centred entries) plus the floor e. -/
def spread (c e : EReal) (v : Fin k → EReal) : EReal := Ideal.div (∑ i, centred c v i * centred c v i) c + e

/-- The normalised row, by the reciprocal square root. -/
def normMul (c e : EReal) (v al be : Fin k → EReal) (j : Fin k) : EReal :=
  centred c v j * Ideal.rsqrt (spread c e v) * al j + be j

/-- The normalised row, by division by the square root. -/
def normDiv (c e : EReal) (v al be : Fin k → EReal) (j : Fin k) : EReal :=
  Ideal.div (centred c v j) (Ideal.sqrt (spread c e v)) * al j + be j

/-- The affine map: entry h of W·u + b. -/
def affine (W : Fin n → Fin k → EReal) (b : Fin n → EReal) (u : Fin k → EReal) (h : Fin n) : EReal :=
  (∑ d, u d * W h d) + b h

/-! ## The two spellings of the normalisation agree -/

/-- Above zero (+∞ included) the product with the reciprocal square root is the quotient by the square root. -/
theorem mul_rsqrt_eq_div_sqrt {s : EReal} (hs : 0 < s) (d : EReal) :
    d * Ideal.rsqrt s = Ideal.div d (Ideal.sqrt s) := by
  induction s using EReal.rec with
  | bot => exact absurd hs (not_lt.mpr bot_le)
  | top => simp [Ideal.div]
  | coe r =>
    have hr : 0 < r := EReal.coe_pos.mp hs
    have hq : Real.sqrt r ≠ 0 := (Real.sqrt_pos.mpr hr).ne'
    rw [Ideal.rsqrt_coe, Ideal.sqrt_coe, if_neg (not_lt.mpr hr.le), if_neg hr.ne', if_neg (not_lt.mpr hr.le), Ideal.div,
      if_neg (by exact_mod_cast hq), EReal.coe_inv]

/-- A square is not negative, at the infinities too. -/
theorem mul_self_nonneg (x : EReal) : 0 ≤ x * x := by
  induction x using EReal.rec with
  | bot => simp
  | top => simp
  | coe r => rw [← EReal.coe_mul]; exact_mod_cast _root_.mul_self_nonneg r

/-- Over a positive count and a positive floor the number under the root is positive. -/
theorem spread_pos {c : ℝ} (hc : 0 < c) {e : EReal} (he : 0 < e) (v : Fin k → EReal) : 0 < spread (c : EReal) e v := by
  unfold spread
  have hs : (0 : EReal) ≤ ∑ i, centred (c : EReal) v i * centred (c : EReal) v i :=
    Finset.sum_nonneg fun i _ => mul_self_nonneg _
  have hd : (0 : EReal) ≤ Ideal.div (∑ i, centred (c : EReal) v i * centred (c : EReal) v i) (c : EReal) := by
    rw [Ideal.div_coe hc.ne']
    exact mul_nonneg hs (by exact_mod_cast (one_div_pos.mpr hc).le)
  exact lt_of_lt_of_le he (le_add_of_nonneg_left hd)

theorem normMul_eq_normDiv {c : ℝ} (hc : 0 < c) {e : EReal} (he : 0 < e) (v al be : Fin k → EReal) :
    normMul (c : EReal) e v al be = normDiv (c : EReal) e v al be := by
  funext j
  unfold normMul normDiv
  rw [mul_rsqrt_eq_div_sqrt (spread_pos hc he v)]

/-! ## The numbers the programs spell -/

/-- The pattern of 0.0. -/
def zero32 : EReal := Ideal.ofBits .f32 0x00000000#32
/-- The pattern of 195.0, the width of the hidden row. -/
def n195 : EReal := Ideal.ofBits .f32 0x43430000#32
/-- The pattern of 78.0, the width of the row. -/
def n78 : EReal := Ideal.ofBits .f32 0x429C0000#32
/-- The pattern of the floor under the root (the float nearest 1e-5). -/
def floor32 : EReal := Ideal.ofBits .f32 0x3727C5AC#32

theorem zero32_eq : zero32 = 0 := Ideal.ofBits_zero_f32

theorem n195_eq : n195 = ((195 : ℝ) : EReal) := by
  unfold n195; simp [Ideal.ofBits, Ideal.ieee, -EReal.coe_mul]; norm_num

theorem n78_eq : n78 = ((78 : ℝ) : EReal) := by
  unfold n78; simp [Ideal.ofBits, Ideal.ieee, -EReal.coe_mul]; norm_num

theorem floor32_pos : 0 < floor32 := by
  unfold floor32; simp [Ideal.ofBits, Ideal.ieee, -EReal.coe_mul]

/-! ## The network -/

/-- The weights, biases, slopes, scales and shifts. -/
structure Params where
  W1 : Fin 195 → Fin 78 → EReal
  b1 : Fin 195 → EReal
  W2 : Fin 78 → Fin 195 → EReal
  b2 : Fin 78 → EReal
  a1 : EReal
  a2 : EReal
  al1 : Fin 195 → EReal
  be1 : Fin 195 → EReal
  al2 : Fin 78 → EReal
  be2 : Fin 78 → EReal

/-- The network with a given spelling of the normalisation. -/
def net (norm : {k : ℕ} → EReal → EReal → (Fin k → EReal) → (Fin k → EReal) → (Fin k → EReal) → Fin k → EReal)
    (P : Params) (u : Fin 78 → EReal) (j : Fin 78) : EReal :=
  norm n78 floor32
      (fun d => leaky zero32 P.a2 (affine P.W2 P.b2
        (norm n195 floor32 (fun h => leaky zero32 P.a1 (affine P.W1 P.b1 u h)) P.al1 P.be1) d))
      P.al2 P.be2 j
    + u j

/-- With the reciprocal square root. -/
def netMul (P : Params) (u : Fin 78 → EReal) (j : Fin 78) : EReal := net (fun c e v al be => normMul c e v al be) P u j
/-- With the division by the square root. -/
def netDiv (P : Params) (u : Fin 78 → EReal) (j : Fin 78) : EReal := net (fun c e v al be => normDiv c e v al be) P u j

theorem netMul_eq_netDiv (P : Params) (u : Fin 78 → EReal) : netMul P u = netDiv P u := by
  funext j
  unfold netMul netDiv net
  simp only [n195_eq, n78_eq, normMul_eq_normDiv (by norm_num : (0 : ℝ) < 195) floor32_pos,
    normMul_eq_normDiv (by norm_num : (0 : ℝ) < 78) floor32_pos]

/-! ## The network over the twelve argument arrays

The inputs are two arrays of 256 × 2048 rows of 39; a token's row is the two arrays' rows side by side. The results are the
network's 78 numbers per token, the first 39 and the last 39 as two arrays shaped like the inputs. -/

open Idealize.ShloMosaic.ValueIdx

/-- The network's numbers, read from the weight matrices ([195, 78] and [78, 195]) and the vectors. -/
def paramsOf (a2 : (⟨2, ![195, 78]⟩ : Shape).Idx → EReal) (a3 : (⟨1, ![195]⟩ : Shape).Idx → EReal)
    (a4 : (⟨2, ![78, 195]⟩ : Shape).Idx → EReal) (a5 : (⟨1, ![78]⟩ : Shape).Idx → EReal)
    (a6 a7 : (⟨1, ![1]⟩ : Shape).Idx → EReal) (a8 a9 : (⟨1, ![195]⟩ : Shape).Idx → EReal)
    (a10 a11 : (⟨1, ![78]⟩ : Shape).Idx → EReal) : Params where
  W1 h d := a2 (ix2 h d)
  b1 h := a3 (ix1 h)
  W2 d h := a4 (ix2 d h)
  b2 d := a5 (ix1 d)
  a1 := a6 (ix1 (0 : Fin 1))
  a2 := a7 (ix1 (0 : Fin 1))
  al1 h := a8 (ix1 h)
  be1 h := a9 (ix1 h)
  al2 d := a10 (ix1 d)
  be2 d := a11 (ix1 d)

/-- Token (b, t)'s row: the first input's 39 numbers, then the second's. -/
def rowOf (a0 a1 : (⟨3, ![256, 2048, 39]⟩ : Shape).Idx → EReal) (b : Fin 256) (t : Fin 2048) (d : Fin 78) : EReal :=
  if h : d.val < 39 then a0 (ix3 b t ⟨d.val, h⟩) else a1 (ix3 b t ⟨d.val - 39, by have := d.isLt; omega⟩)

/-- The first result: entries 0 … 38 of each token's 78 numbers. -/
def resultLo (net : Params → (Fin 78 → EReal) → Fin 78 → EReal) (P : Params)
    (a0 a1 : (⟨3, ![256, 2048, 39]⟩ : Shape).Idx → EReal) : (⟨3, ![256, 2048, 39]⟩ : Shape).Idx → EReal :=
  fun i => net P (rowOf a0 a1 (i 0) (i 1)) ⟨(i 2).val, by have h : (i 2).val < 39 := (i 2).isLt; omega⟩

/-- The second result: entries 39 … 77. -/
def resultHi (net : Params → (Fin 78 → EReal) → Fin 78 → EReal) (P : Params)
    (a0 a1 : (⟨3, ![256, 2048, 39]⟩ : Shape).Idx → EReal) : (⟨3, ![256, 2048, 39]⟩ : Shape).Idx → EReal :=
  fun i => net P (rowOf a0 a1 (i 0) (i 1)) ⟨39 + (i 2).val, by have h : (i 2).val < 39 := (i 2).isLt; omega⟩

theorem resultLo_eq (P : Params) (a0 a1 : (⟨3, ![256, 2048, 39]⟩ : Shape).Idx → EReal) :
    resultLo netMul P a0 a1 = resultLo netDiv P a0 a1 := by
  funext i; unfold resultLo; rw [netMul_eq_netDiv]

theorem resultHi_eq (P : Params) (a0 a1 : (⟨3, ![256, 2048, 39]⟩ : Shape).Idx → EReal) :
    resultHi netMul P a0 a1 = resultHi netDiv P a0 a1 := by
  funext i; unfold resultHi; rw [netMul_eq_netDiv]

end RowNet

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.TileLayers.lean ====
/-
  The layers of the tiled program, each over a tile of m rows, read at an entry (r, j) as the row functions of the
  network: every layer reads, in row r of its result, row r of its matrix operand only. The weight, bias, slope, scale
  and shift operands are small blocks ([k, n], [1, n], [1, 1]) that every tile sees whole.
-/
import proofs.«147949_j55018531062716_1_alg».proof.Proof.RowNet
import proofs.«147949_j55018531062716_1_alg».proof.Proof.LibRowLayers
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace TileLayers

open Idealize.ShloMosaic Idealize.ShloMosaic.ValueIdx RowLayers RowNet

variable {m k n : ℕ}

/-! ## The layers as whole-tile functions, at any float instance -/

section Defs

variable {F : FTy → Type} [FloatOps F]

/-- The tile less its row means: each row's lane sum, as a column, over the count, broadcast back and subtracted. -/
def centre (cw : BitVec 32) (hred : (⟨2, ![m, k]⟩ : Shape).Reduces [1] ⟨1, ![m]⟩) (hfmt : FKind.Formats FTy.f32)
    (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec F ⟨2, ![m, k]⟩ .f32) : FVec F ⟨2, ![m, k]⟩ .f32 :=
  subf x (broadcastTo ⟨2, ![m, k]⟩
    (divf (shapeCast ⟨2, ![m, 1]⟩ (multiReduction .add [1] ⟨1, ![m]⟩ x 0x00000000#32 hred hfmt hacc) hsc)
      (broadcast ⟨2, ![m, 1]⟩ (Scalar.ofBits .f32 cw))) hbc)

/-- The centred tile times the reciprocal square root of each row's variance plus the floor, times the scale row. -/
def normScale (cw ew : BitVec 32) (hred : (⟨2, ![m, k]⟩ : Shape).Reduces [1] ⟨1, ![m]⟩) (hfmt : FKind.Formats FTy.f32)
    (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (hsc1 : (⟨2, ![1, k]⟩ : Shape).ShapeCasts ⟨2, ![1, k]⟩) (hbc1 : (⟨2, ![1, k]⟩ : Shape).Broadcasts ⟨2, ![m, k]⟩)
    (x : FVec F ⟨2, ![m, k]⟩ .f32) (al : Vec F ⟨2, ![1, k]⟩ .f32) : FVec F ⟨2, ![m, k]⟩ .f32 :=
  mulf
    (mulf (centre cw hred hfmt hacc hsc hbc x)
      (broadcastTo ⟨2, ![m, k]⟩
        (rsqrt (addf
          (divf (shapeCast ⟨2, ![m, 1]⟩
              (multiReduction .add [1] ⟨1, ![m]⟩
                (mulf (centre cw hred hfmt hacc hsc hbc x) (centre cw hred hfmt hacc hsc hbc x)) 0x00000000#32 hred hfmt hacc) hsc)
            (broadcast ⟨2, ![m, 1]⟩ (Scalar.ofBits .f32 cw)))
          (broadcast ⟨2, ![m, 1]⟩ (Scalar.ofBits .f32 ew)))) hbc))
    (broadcastTo ⟨2, ![m, k]⟩ (shapeCast ⟨2, ![1, k]⟩ al hsc1) hbc1)

/-- A row block added to every row of the tile. -/
def shift (hsc1 : (⟨2, ![1, k]⟩ : Shape).ShapeCasts ⟨2, ![1, k]⟩) (hbc1 : (⟨2, ![1, k]⟩ : Shape).Broadcasts ⟨2, ![m, k]⟩)
    (x : FVec F ⟨2, ![m, k]⟩ .f32) (be : Vec F ⟨2, ![1, k]⟩ .f32) : FVec F ⟨2, ![m, k]⟩ .f32 :=
  addf x (broadcastTo ⟨2, ![m, k]⟩ (shapeCast ⟨2, ![1, k]⟩ be hsc1) hbc1)

/-- The leaky rectifier over the tile, its slope the one entry of a [1, 1] block. -/
def rectify (hsc : (⟨2, ![1, 1]⟩ : Shape).ShapeCasts ⟨2, ![1, 1]⟩) (hbc : (⟨2, ![1, 1]⟩ : Shape).Broadcasts ⟨2, ![m, k]⟩)
    (a : Vec F ⟨2, ![1, 1]⟩ .f32) (h : FVec F ⟨2, ![m, k]⟩ .f32) : FVec F ⟨2, ![m, k]⟩ .f32 :=
  select (cmpf .oge h (broadcast ⟨2, ![m, k]⟩ (Scalar.ofBits .f32 0x00000000#32))) h
    (mulf (broadcastTo ⟨2, ![m, k]⟩ (shapeCast ⟨2, ![1, 1]⟩ a hsc) hbc) h)

/-- The affine layer: the tile narrowed, times the [k, n] weight block on the matrix unit into a zero accumulator,
    plus the bias row. -/
def affineTile (D : DotDims ⟨2, ![m, k]⟩ ⟨2, ![k, n]⟩ ⟨2, ![m, n]⟩) (h16 : FTy.bf16.bits < FTy.f32.bits)
    (hscW : (⟨2, ![k, n]⟩ : Shape).ShapeCasts ⟨2, ![k, n]⟩)
    (hsc1 : (⟨2, ![1, n]⟩ : Shape).ShapeCasts ⟨2, ![1, n]⟩) (hbc1 : (⟨2, ![1, n]⟩ : Shape).Broadcasts ⟨2, ![m, n]⟩)
    (X : FVec F ⟨2, ![m, k]⟩ .f32) (W : Vec F ⟨2, ![k, n]⟩ .bf16) (b : Vec F ⟨2, ![1, n]⟩ .f32) : FVec F ⟨2, ![m, n]⟩ .f32 :=
  addf (matmul D none (truncf .bf16 X h16) (shapeCast ⟨2, ![k, n]⟩ W hscW) (constant ⟨2, ![m, n]⟩ .f32 0x00000000#32))
    (broadcastTo ⟨2, ![m, n]⟩ (shapeCast ⟨2, ![1, n]⟩ b hsc1) hbc1)

end Defs

/-! ## Their entries at the exact instance -/

/-- The plain product on the matrix unit into the zero splat, at (a, b): the sum over the contracted coordinate. -/
theorem matmul_plain_apply {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- A [1, n] block, cast to its own shape and broadcast down the rows, reads at (r, j) its entry j. -/
theorem rowBlock_apply {α : Type} (hsc1 : (⟨2, ![1, n]⟩ : Shape).ShapeCasts ⟨2, ![1, n]⟩)
    (hbc1 : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ v hsc1) hbc1 (ix2 r j) = v (ix2 (0 : Fin 1) j) := by
  rw [broadcastTo_1b_ab_apply, shapeCast_self]

/-- A [1, 1] block, cast to its own shape and broadcast over the tile, reads its one entry everywhere. -/
theorem oneEntry_apply {α : Type} (hsc : (⟨2, ![1, 1]⟩ : Shape).ShapeCasts ⟨2, ![1, 1]⟩)
    (hbc : (⟨2, ![1, 1]⟩ : Shape).Broadcasts ⟨2, ![m, k]⟩) (v : (⟨2, ![1, 1]⟩ : Shape).Idx → α) (r : Fin m) (j : Fin k) :
    broadcastTo ⟨2, ![m, k]⟩ (shapeCast ⟨2, ![1, 1]⟩ v hsc) hbc (ix2 r j) = v (ix2 (0 : Fin 1) (0 : Fin 1)) := by
  rw [shapeCast_self]
  refine broadcastTo_apply v hbc (ix2 r j) (ix2 (0 : Fin 1) (0 : Fin 1)) fun ax => ?_
  match ax with
  | ⟨0, _⟩ => rfl
  | ⟨1, _⟩ => rfl

/-- A row's lane sum, as a column, at (r, 0). -/
theorem rowSum_apply (hred : (⟨2, ![m, k]⟩ : Shape).Reduces [1] ⟨1, ![m]⟩) (hfmt : FKind.Formats FTy.f32)
    (hacc : (0x00000000#32 : BitVec FTy.f32.bits) = FKind.add.neutral .f32 hfmt)
    (hsc : (⟨1, ![m]⟩ : Shape).ShapeCasts ⟨2, ![m, 1]⟩) (x : FVec Ideal ⟨2, ![m, k]⟩ .f32) (r : Fin m) (u : Fin 1) :
    shapeCast ⟨2, ![m, 1]⟩ (multiReduction .add [1] ⟨1, ![m]⟩ x 0x00000000#32 hred hfmt hacc) hsc (ix2 r u)
      = ∑ c : Fin k, x (ix2 r c) := by
  rw [column_apply, Ideal.multiReduction_add_single]
  refine Finset.sum_congr rfl fun c _ => ?_
  rw [lift_cols]; rfl

theorem centre_apply (cw : BitVec 32) (hred : (⟨2, ![m, k]⟩ : Shape).Reduces [1] ⟨1, ![m]⟩) (hfmt : FKind.Formats FTy.f32)
    (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    centre cw hred hfmt hacc hsc hbc x (ix2 r j) = centred (Ideal.ofBits .f32 cw) (fun i => x (ix2 r i)) j := by
  unfold centre
  rw [subf_apply, broadcastColumn_apply, divf_apply, rowSum_apply]
  rfl

theorem normScale_apply (cw ew : BitVec 32) (hred : (⟨2, ![m, k]⟩ : Shape).Reduces [1] ⟨1, ![m]⟩) (hfmt : FKind.Formats FTy.f32)
    (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (hsc1 : (⟨2, ![1, k]⟩ : Shape).ShapeCasts ⟨2, ![1, k]⟩) (hbc1 : (⟨2, ![1, k]⟩ : Shape).Broadcasts ⟨2, ![m, k]⟩)
    (x : FVec Ideal ⟨2, ![m, k]⟩ .f32) (al : Vec Ideal ⟨2, ![1, k]⟩ .f32) (r : Fin m) (j : Fin k) :
    normScale cw ew hred hfmt hacc hsc hbc hsc1 hbc1 x al (ix2 r j)
      = centred (Ideal.ofBits .f32 cw) (fun i => x (ix2 r i)) j
          * Ideal.rsqrt (spread (Ideal.ofBits .f32 cw) (Ideal.ofBits .f32 ew) (fun i => x (ix2 r i)))
          * al (ix2 (0 : Fin 1) j) := by
  unfold normScale
  rw [mulf_apply, mulf_apply, rowBlock_apply, broadcastColumn_apply, centre_apply]
  show _ * Ideal.rsqrt (Ideal.div (shapeCast _ _ hsc (ix2 r (0 : Fin 1))) _ + _) * _ = _
  rw [rowSum_apply]
  simp only [mulf_apply, centre_apply]
  rfl

theorem shift_apply (hsc1 : (⟨2, ![1, k]⟩ : Shape).ShapeCasts ⟨2, ![1, k]⟩) (hbc1 : (⟨2, ![1, k]⟩ : Shape).Broadcasts ⟨2, ![m, k]⟩)
    (x : FVec Ideal ⟨2, ![m, k]⟩ .f32) (be : Vec Ideal ⟨2, ![1, k]⟩ .f32) (r : Fin m) (j : Fin k) :
    shift hsc1 hbc1 x be (ix2 r j) = x (ix2 r j) + be (ix2 (0 : Fin 1) j) := by
  unfold shift
  rw [addf_apply, rowBlock_apply]

theorem rectify_apply (hsc : (⟨2, ![1, 1]⟩ : Shape).ShapeCasts ⟨2, ![1, 1]⟩) (hbc : (⟨2, ![1, 1]⟩ : Shape).Broadcasts ⟨2, ![m, k]⟩)
    (a : Vec Ideal ⟨2, ![1, 1]⟩ .f32) (h : FVec Ideal ⟨2, ![m, k]⟩ .f32) (r : Fin m) (j : Fin k) :
    rectify hsc hbc a h (ix2 r j) = leaky zero32 (a (ix2 (0 : Fin 1) (0 : Fin 1))) (h (ix2 r j)) := by
  unfold rectify
  rw [select_apply, mulf_apply, oneEntry_apply]
  rfl

theorem affineTile_apply (D : DotDims ⟨2, ![m, k]⟩ ⟨2, ![k, n]⟩ ⟨2, ![m, n]⟩) (hD : D = DotDims.plain m k n)
    (h16 : FTy.bf16.bits < FTy.f32.bits) (hscW : (⟨2, ![k, n]⟩ : Shape).ShapeCasts ⟨2, ![k, n]⟩)
    (hsc1 : (⟨2, ![1, n]⟩ : Shape).ShapeCasts ⟨2, ![1, n]⟩) (hbc1 : (⟨2, ![1, n]⟩ : Shape).Broadcasts ⟨2, ![m, n]⟩)
    (X : FVec Ideal ⟨2, ![m, k]⟩ .f32) (W : Vec Ideal ⟨2, ![k, n]⟩ .bf16) (b : Vec Ideal ⟨2, ![1, n]⟩ .f32) (r : Fin m) (h : Fin n) :
    affineTile D h16 hscW hsc1 hbc1 X W b (ix2 r h)
      = affine (fun h d => W (ix2 d h)) (fun h => b (ix2 (0 : Fin 1) h)) (fun d => X (ix2 r d)) h := by
  subst hD
  unfold affineTile
  rw [addf_apply, rowBlock_apply, shapeCast_self, matmul_plain_apply]
  rfl

end TileLayers

end
-- ==== Proof.TileRow.lean ====
/-
  The tiled program's stored value, entry by entry: the block of 2048 rows that one grid point writes holds, at (p, j),
  the network of RowNet (the reciprocal-square-root spelling) of row p of the two input blocks laid side by side, with
  the weights read from the transposed blocks the program is handed ([78, 195] and [195, 78]) and the biases, slopes,
  scales and shifts from their [1, n] and [1, 1] blocks.
-/
import proofs.«147949_j55018531062716_1_alg».proof.Proof.Gen.KernelIdeal.Skeleton
import proofs.«147949_j55018531062716_1_alg».proof.Proof.TileLayers

noncomputable section

open scoped BigOperators

namespace Cert.KernelIdeal.TileRow

open Cert.KernelIdeal Cert.KernelIdeal.Gen Idealize.ShloMosaic Idealize.ShloMosaic.ValueIdx RowNet TileLayers

/-! ## The payloads are the layers, composed -/

/-- The lane sums are of f32 words, and start from the pattern of zero. -/
theorem fmt32 : FKind.Formats FTy.f32 := .inl rfl
theorem acc32 : (0x00000000#32 : BitVec FTy.f32.bits) = FKind.add.neutral .f32 fmt32 := rfl

/-- The two products contract the left operand's columns with the right operand's rows. -/
theorem dot1_plain : dot_S2048x78_S78x195_S2048x195_1_0_0_1_n_n = DotDims.plain 2048 78 195 := rfl
theorem dot2_plain : dot_S2048x195_S195x78_S2048x78_1_0_0_1_n_n = DotDims.plain 2048 195 78 := rfl

section Layers

variable {F : FTy → Type} [FloatOps F]

/-- The first half: affine into 195 columns, rectifier, normalisation times its scale row. -/
theorem pay3_eq (x0 x1 : Vec F S2048x39 .f32) (x2 : Vec F S78x195 .bf16) (x3 : Vec F S1x195 .f32) (x6 : Vec F S1x1 .f32)
    (x8 : Vec F S1x195 .f32) :
    k0_pay3 x0 x1 x2 x3 x6 x8
      = normScale 0x43430000#32 0x3727C5AC#32 reduces_S2048x195_S2048 fmt32 acc32 shapeCasts_S2048_S2048x1
          broadcasts_S2048x1_S2048x195 shapeCasts_S1x195_S1x195 broadcasts_S1x195_S2048x195
          (rectify shapeCasts_S1x1_S1x1 broadcasts_S1x1_S2048x195 x6
            (affineTile dot_S2048x78_S78x195_S2048x195_1_0_0_1_n_n bitsLt_bf16_f32 shapeCasts_S78x195_S78x195
              shapeCasts_S1x195_S1x195 broadcasts_S1x195_S2048x195 (k0_pay2 x0 x1) x2 x3)) x8 := rfl

/-- The second half: the shift row, affine back into 78 columns, rectifier, normalisation times its scale row. -/
theorem pay4_eq (v39 : FVec F S2048x195 .f32) (x9 : Vec F S1x195 .f32) (x4 : Vec F S195x78 .bf16) (x5 : Vec F S1x78 .f32)
    (x7 : Vec F S1x1 .f32) (x10 : Vec F S1x78 .f32) :
    k0_pay4 v39 x9 x4 x5 x7 x10
      = normScale 0x429C0000#32 0x3727C5AC#32 reduces_S2048x78_S2048 fmt32 acc32 shapeCasts_S2048_S2048x1
          broadcasts_S2048x1_S2048x78 shapeCasts_S1x78_S1x78 broadcasts_S1x78_S2048x78
          (rectify shapeCasts_S1x1_S1x1 broadcasts_S1x1_S2048x78 x7
            (affineTile dot_S2048x195_S195x78_S2048x78_1_0_0_1_n_n bitsLt_bf16_f32 shapeCasts_S195x78_S195x78
              shapeCasts_S1x78_S1x78 broadcasts_S1x78_S2048x78
              (shift shapeCasts_S1x195_S1x195 broadcasts_S1x195_S2048x195 v39 x9) x4 x5)) x10 := rfl

/-- The end: the last shift row, and the joined input rows added back. -/
theorem pay1_eq (v4 v78 : FVec F S2048x78 .f32) (x11 : Vec F S1x78 .f32) :
    k0_pay1 v4 v78 (k0_pay5 x11) = addf (shift shapeCasts_S1x78_S1x78 broadcasts_S1x78_S2048x78 v78 x11) v4 := rfl

end Layers

/-! ## Read at an entry -/

/-- The network's numbers as the tiled program is handed them. -/
def params (x2 : Vec Ideal S78x195 .bf16) (x3 : Vec Ideal S1x195 .f32) (x4 : Vec Ideal S195x78 .bf16) (x5 : Vec Ideal S1x78 .f32)
    (x6 x7 : Vec Ideal S1x1 .f32) (x8 x9 : Vec Ideal S1x195 .f32) (x10 x11 : Vec Ideal S1x78 .f32) : Params where
  W1 h d := x2 (ix2 d h)
  b1 h := x3 (ix2 (0 : Fin 1) h)
  W2 d h := x4 (ix2 h d)
  b2 d := x5 (ix2 (0 : Fin 1) d)
  a1 := x6 (ix2 (0 : Fin 1) (0 : Fin 1))
  a2 := x7 (ix2 (0 : Fin 1) (0 : Fin 1))
  al1 h := x8 (ix2 (0 : Fin 1) h)
  be1 h := x9 (ix2 (0 : Fin 1) h)
  al2 d := x10 (ix2 (0 : Fin 1) d)
  be2 d := x11 (ix2 (0 : Fin 1) d)

/-- The hidden row: entry (p, h) of the first half of the program with its shift row, from any tile X of 78 columns. -/
theorem hidden_apply (X : FVec Ideal S2048x78 .f32) (x2 : Vec Ideal S78x195 .bf16) (x3 : Vec Ideal S1x195 .f32)
    (x6 : Vec Ideal S1x1 .f32) (x8 x9 : Vec Ideal S1x195 .f32) (p : Fin 2048) (h : Fin 195) :
    shift shapeCasts_S1x195_S1x195 broadcasts_S1x195_S2048x195
        (normScale 0x43430000#32 0x3727C5AC#32 reduces_S2048x195_S2048 fmt32 acc32 shapeCasts_S2048_S2048x1
          broadcasts_S2048x1_S2048x195 shapeCasts_S1x195_S1x195 broadcasts_S1x195_S2048x195
          (rectify shapeCasts_S1x1_S1x1 broadcasts_S1x1_S2048x195 x6
            (affineTile dot_S2048x78_S78x195_S2048x195_1_0_0_1_n_n bitsLt_bf16_f32 shapeCasts_S78x195_S78x195
              shapeCasts_S1x195_S1x195 broadcasts_S1x195_S2048x195 X x2 x3)) x8) x9 (ix2 p h)
      = normMul n195 floor32
          (fun h => leaky zero32 (x6 (ix2 (0 : Fin 1) (0 : Fin 1)))
            (affine (fun h d => x2 (ix2 d h)) (fun h => x3 (ix2 (0 : Fin 1) h)) (fun d => X (ix2 p d)) h))
          (fun h => x8 (ix2 (0 : Fin 1) h)) (fun h => x9 (ix2 (0 : Fin 1) h)) h := by
  rw [shift_apply, normScale_apply]
  simp only [rectify_apply, affineTile_apply _ dot1_plain]
  rfl

/-- The row that is stored, before the input row is added back: entry (p, j) of the second half of the program with its
    shift row, from any tile H of 195 columns. -/
theorem back_apply (H : FVec Ideal S2048x195 .f32) (x4 : Vec Ideal S195x78 .bf16) (x5 : Vec Ideal S1x78 .f32)
    (x7 : Vec Ideal S1x1 .f32) (x10 x11 : Vec Ideal S1x78 .f32) (p : Fin 2048) (j : Fin 78) :
    shift shapeCasts_S1x78_S1x78 broadcasts_S1x78_S2048x78
        (normScale 0x429C0000#32 0x3727C5AC#32 reduces_S2048x78_S2048 fmt32 acc32 shapeCasts_S2048_S2048x1
          broadcasts_S2048x1_S2048x78 shapeCasts_S1x78_S1x78 broadcasts_S1x78_S2048x78
          (rectify shapeCasts_S1x1_S1x1 broadcasts_S1x1_S2048x78 x7
            (affineTile dot_S2048x195_S195x78_S2048x78_1_0_0_1_n_n bitsLt_bf16_f32 shapeCasts_S195x78_S195x78
              shapeCasts_S1x78_S1x78 broadcasts_S1x78_S2048x78 H x4 x5)) x10) x11 (ix2 p j)
      = normMul n78 floor32
          (fun d => leaky zero32 (x7 (ix2 (0 : Fin 1) (0 : Fin 1)))
            (affine (fun d h => x4 (ix2 h d)) (fun d => x5 (ix2 (0 : Fin 1) d)) (fun h => H (ix2 p h)) d))
          (fun d => x10 (ix2 (0 : Fin 1) d)) (fun d => x11 (ix2 (0 : Fin 1) d)) j := by
  rw [shift_apply, normScale_apply]
  simp only [rectify_apply, affineTile_apply _ dot2_plain]
  rfl

/-- Entry (p, j) of the stored block is the network of row p of the joined input blocks. -/
theorem stored_apply (x0 x1 : Vec Ideal S2048x39 .f32) (x2 : Vec Ideal S78x195 .bf16) (x3 : Vec Ideal S1x195 .f32)
    (x4 : Vec Ideal S195x78 .bf16) (x5 : Vec Ideal S1x78 .f32) (x6 x7 : Vec Ideal S1x1 .f32) (x8 x9 : Vec Ideal S1x195 .f32)
    (x10 x11 : Vec Ideal S1x78 .f32) (p : Fin 2048) (j : Fin 78) :
    k0_pay1 (k0_pay2 x0 x1) (k0_pay4 (k0_pay3 x0 x1 x2 x3 x6 x8) x9 x4 x5 x7 x10) (k0_pay5 x11) (ix2 p j)
      = netMul (params x2 x3 x4 x5 x6 x7 x8 x9 x10 x11) (fun d => k0_pay2 x0 x1 (ix2 p d)) j := by
  rw [pay1_eq, pay4_eq, pay3_eq, addf_apply, back_apply]
  simp only [hidden_apply]
  rfl

end Cert.KernelIdeal.TileRow

end
-- ==== Proof.KernelArray.lean ====
/-
  The tiled program's whole run, read. The grid has 256 points; point t is handed rows 2048·t … 2048·t + 2047 of the two
  inputs (reshaped to 524288 rows of 39), the weight matrices transposed, and the vectors as one-row blocks, all whole; it
  stores rows 2048·t … of a 524288 × 78 result array. So the result array's row r is the network of row r of the two
  inputs side by side; reshaped to 256 × 2048 rows and cut into its first and last 39 columns it is the two results, token
  (b, t) being row 2048·b + t.
-/
import proofs.«147949_j55018531062716_1_alg».proof.Proof.Gen.KernelIdeal.Frame
import proofs.«147949_j55018531062716_1_alg».proof.Proof.TileRow
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx RowNet RowLayers

variable (m : (ℓ : Loc nD τ sig) → Buf (Elt Ideal) ℓ) (ρ : Dev nD → PrngReg)

/-! ## The grid: point t takes rows 2048·t … 2048·t + 2047 of the two inputs and of the result, and every other block whole -/

theorem hz : (![0, 0] : Fin 2 → Nat) = fun _ => 0 := funext fun a => by fin_cases a <;> rfl

theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0 :=
  (by decide +kernel : ∀ t : Fin grid0.N, _)

theorem idx_whole : ∀ t : Fin cfg0.N, (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0)
    ∧ (∀ a : Fin 2, win0_10.index t a = 0) ∧ (∀ a : Fin 2, win0_11.index t a = 0) :=
  (by decide +kernel : ∀ t : Fin grid0.N, _)

/-- Row 2048·t + p of an array of 524288 rows. -/
abbrev rowAt (t : Fin cfg0.N) (p : Fin 2048) : Fin 524288 :=
  ⟨2048 * t.val + p.val, by have := t.isLt; have := p.isLt; have : cfg0.N = 256 := N_0; omega⟩

/-- The first input's block at point t, at (p, d): row 2048·t + p of the array the region finds. -/
theorem blk0_apply (c : Dev nD) (t : Fin cfg0.N) (p : Fin 2048) (d : Fin 39) :
    (iblk m c 0 t : Vec Ideal S2048x39 .f32) (ix2 p d) = (V m c main_v0 : S524288x39.Idx → EReal) (ix2 (rowAt t p) d) := by
  obtain ⟨e0, e1, -⟩ := idx_rows t
  unfold iblk
  rw [View.read_apply]
  show V m c main_v0 _ = V m c main_v0 _
  congr 1
  funext a
  apply Fin.ext
  match a with
  | ⟨0, _⟩ => show win0_0.index t (0 : Fin 2) * 2048 + 1 * p.val = 2048 * t.val + p.val; rw [e0]; omega
  | ⟨1, _⟩ => show win0_0.index t (1 : Fin 2) * 39 + 1 * d.val = d.val; rw [e1]; omega

theorem blk1_apply (c : Dev nD) (t : Fin cfg0.N) (p : Fin 2048) (d : Fin 39) :
    (iblk m c 1 t : Vec Ideal S2048x39 .f32) (ix2 p d) = (V m c main_v1 : S524288x39.Idx → EReal) (ix2 (rowAt t p) d) := by
  obtain ⟨-, -, e0, e1, -⟩ := idx_rows t
  unfold iblk
  rw [View.read_apply]
  show V m c main_v1 _ = V m c main_v1 _
  congr 1
  funext a
  apply Fin.ext
  match a with
  | ⟨0, _⟩ => show win0_1.index t (0 : Fin 2) * 2048 + 1 * p.val = 2048 * t.val + p.val; rw [e0]; omega
  | ⟨1, _⟩ => show win0_1.index t (1 : Fin 2) * 39 + 1 * d.val = d.val; rw [e1]; omega

/-- A window whose block is its whole array, at block index (0, 0): the block is the array. -/
theorem blk2_eq (c : Dev nD) (t : Fin cfg0.N) : (iblk m c 2 t : Vec Ideal S78x195 .bf16) = V m c main_v3 := by
  obtain ⟨e, -⟩ := idx_whole t
  funext y
  unfold iblk
  rw [View.read_apply]
  show V m c main_v3 _ = V m c main_v3 _
  congr 1
  funext a
  apply Fin.ext
  match a with
  | ⟨0, _⟩ => show win0_2.index t (0 : Fin 2) * 78 + 1 * (y 0).val = (y 0).val; rw [e]; omega
  | ⟨1, _⟩ => show win0_2.index t (1 : Fin 2) * 195 + 1 * (y 1).val = (y 1).val; rw [e]; omega

/-! ## The arrays the region finds, from the arguments -/

theorem V_v0 (c : Dev nD) : (V m c main_v0 : S524288x39.Idx → EReal)
    = shapeCast S524288x39 (m ((c : Thread nD τ).loc main_arg0) : S256x2048x39.Idx → EReal) shapeCasts_S256x2048x39_S524288x39 := by
  show StableHlo.after hostOps0 (fun b => m (c, b)) (Proc.devRef .tc main_v0) = _
  after_results; rfl

theorem V_v1 (c : Dev nD) : (V m c main_v1 : S524288x39.Idx → EReal)
    = shapeCast S524288x39 (m ((c : Thread nD τ).loc main_arg1) : S256x2048x39.Idx → EReal) shapeCasts_S256x2048x39_S524288x39 := by
  show StableHlo.after hostOps0 (fun b => m (c, b)) (Proc.devRef .tc main_v1) = _
  after_results; rfl

/-- The first weight matrix transposed (the narrowing of its format is the identity on extended reals). -/
theorem V_v3 (c : Dev nD) : (V m c main_v3 : S78x195.Idx → EReal)
    = transpose S78x195 [1, 0] (m ((c : Thread nD τ).loc main_arg2) : S195x78.Idx → EReal) transposes_S195x78_S78x195_1_0 := by
  show StableHlo.after hostOps0 (fun b => m (c, b)) (Proc.devRef .tc main_v3) = _
  after_results; rfl

theorem V_v5 (c : Dev nD) : (V m c main_v5 : S195x78.Idx → EReal)
    = transpose S195x78 [1, 0] (m ((c : Thread nD τ).loc main_arg4) : S78x195.Idx → EReal) transposes_S78x195_S195x78_1_0 := by
  show StableHlo.after hostOps0 (fun b => m (c, b)) (Proc.devRef .tc main_v5) = _
  after_results; rfl

theorem V_v6 (c : Dev nD) : (V m c main_v6 : S1x195.Idx → EReal)
    = shapeCast S1x195 (m ((c : Thread nD τ).loc main_arg3) : S195.Idx → EReal) shapeCasts_S195_S1x195 := by
  show StableHlo.after hostOps0 (fun b => m (c, b)) (Proc.devRef .tc main_v6) = _
  after_results; rfl

theorem V_v7 (c : Dev nD) : (V m c main_v7 : S1x78.Idx → EReal)
    = shapeCast S1x78 (m ((c : Thread nD τ).loc main_arg5) : S78.Idx → EReal) shapeCasts_S78_S1x78 := by
  show StableHlo.after hostOps0 (fun b => m (c, b)) (Proc.devRef .tc main_v7) = _
  after_results; rfl

theorem V_v8 (c : Dev nD) : (V m c main_v8 : S1x1.Idx → EReal)
    = shapeCast S1x1 (m ((c : Thread nD τ).loc main_arg6) : S1.Idx → EReal) shapeCasts_S1_S1x1 := by
  show StableHlo.after hostOps0 (fun b => m (c, b)) (Proc.devRef .tc main_v8) = _
  after_results; rfl

theorem V_v9 (c : Dev nD) : (V m c main_v9 : S1x1.Idx → EReal)
    = shapeCast S1x1 (m ((c : Thread nD τ).loc main_arg7) : S1.Idx → EReal) shapeCasts_S1_S1x1 := by
  show StableHlo.after hostOps0 (fun b => m (c, b)) (Proc.devRef .tc main_v9) = _
  after_results; rfl

theorem V_v10 (c : Dev nD) : (V m c main_v10 : S1x195.Idx → EReal)
    = shapeCast S1x195 (m ((c : Thread nD τ).loc main_arg8) : S195.Idx → EReal) shapeCasts_S195_S1x195 := by
  show StableHlo.after hostOps0 (fun b => m (c, b)) (Proc.devRef .tc main_v10) = _
  after_results; rfl

theorem V_v11 (c : Dev nD) : (V m c main_v11 : S1x195.Idx → EReal)
    = shapeCast S1x195 (m ((c : Thread nD τ).loc main_arg9) : S195.Idx → EReal) shapeCasts_S195_S1x195 := by
  show StableHlo.after hostOps0 (fun b => m (c, b)) (Proc.devRef .tc main_v11) = _
  after_results; rfl

theorem V_v12 (c : Dev nD) : (V m c main_v12 : S1x78.Idx → EReal)
    = shapeCast S1x78 (m ((c : Thread nD τ).loc main_arg10) : S78.Idx → EReal) shapeCasts_S78_S1x78 := by
  show StableHlo.after hostOps0 (fun b => m (c, b)) (Proc.devRef .tc main_v12) = _
  after_results; rfl

theorem V_v13 (c : Dev nD) : (V m c main_v13 : S1x78.Idx → EReal)
    = shapeCast S1x78 (m ((c : Thread nD τ).loc main_arg11) : S78.Idx → EReal) shapeCasts_S78_S1x78 := by
  show StableHlo.after hostOps0 (fun b => m (c, b)) (Proc.devRef .tc main_v13) = _
  after_results; rfl

theorem blk3_eq (c : Dev nD) (t : Fin cfg0.N) : (iblk m c 3 t : Vec Ideal S1x195 .f32) = V m c main_v6 := by
  obtain ⟨-, e, -⟩ := idx_whole t
  funext y
  unfold iblk
  rw [View.read_apply]
  show V m c main_v6 _ = V m c main_v6 _
  congr 1
  funext a
  apply Fin.ext
  match a with
  | ⟨0, _⟩ => show win0_3.index t (0 : Fin 2) * 1 + 1 * (y 0).val = (y 0).val; rw [e]; omega
  | ⟨1, _⟩ => show win0_3.index t (1 : Fin 2) * 195 + 1 * (y 1).val = (y 1).val; rw [e]; omega

theorem blk4_eq (c : Dev nD) (t : Fin cfg0.N) : (iblk m c 4 t : Vec Ideal S195x78 .bf16) = V m c main_v5 := by
  obtain ⟨-, -, e, -⟩ := idx_whole t
  funext y
  unfold iblk
  rw [View.read_apply]
  show V m c main_v5 _ = V m c main_v5 _
  congr 1
  funext a
  apply Fin.ext
  match a with
  | ⟨0, _⟩ => show win0_4.index t (0 : Fin 2) * 195 + 1 * (y 0).val = (y 0).val; rw [e]; omega
  | ⟨1, _⟩ => show win0_4.index t (1 : Fin 2) * 78 + 1 * (y 1).val = (y 1).val; rw [e]; omega

theorem blk5_eq (c : Dev nD) (t : Fin cfg0.N) : (iblk m c 5 t : Vec Ideal S1x78 .f32) = V m c main_v7 := by
  obtain ⟨-, -, -, e, -⟩ := idx_whole t
  funext y
  unfold iblk
  rw [View.read_apply]
  show V m c main_v7 _ = V m c main_v7 _
  congr 1
  funext a
  apply Fin.ext
  match a with
  | ⟨0, _⟩ => show win0_5.index t (0 : Fin 2) * 1 + 1 * (y 0).val = (y 0).val; rw [e]; omega
  | ⟨1, _⟩ => show win0_5.index t (1 : Fin 2) * 78 + 1 * (y 1).val = (y 1).val; rw [e]; omega

theorem blk6_eq (c : Dev nD) (t : Fin cfg0.N) : (iblk m c 6 t : Vec Ideal S1x1 .f32) = V m c main_v8 := by
  obtain ⟨-, -, -, -, e, -⟩ := idx_whole t
  funext y
  unfold iblk
  rw [View.read_apply]
  show V m c main_v8 _ = V m c main_v8 _
  congr 1
  funext a
  apply Fin.ext
  match a with
  | ⟨0, _⟩ => show win0_6.index t (0 : Fin 2) * 1 + 1 * (y 0).val = (y 0).val; rw [e]; omega
  | ⟨1, _⟩ => show win0_6.index t (1 : Fin 2) * 1 + 1 * (y 1).val = (y 1).val; rw [e]; omega

theorem blk7_eq (c : Dev nD) (t : Fin cfg0.N) : (iblk m c 7 t : Vec Ideal S1x1 .f32) = V m c main_v9 := by
  obtain ⟨-, -, -, -, -, e, -⟩ := idx_whole t
  funext y
  unfold iblk
  rw [View.read_apply]
  show V m c main_v9 _ = V m c main_v9 _
  congr 1
  funext a
  apply Fin.ext
  match a with
  | ⟨0, _⟩ => show win0_7.index t (0 : Fin 2) * 1 + 1 * (y 0).val = (y 0).val; rw [e]; omega
  | ⟨1, _⟩ => show win0_7.index t (1 : Fin 2) * 1 + 1 * (y 1).val = (y 1).val; rw [e]; omega

theorem blk8_eq (c : Dev nD) (t : Fin cfg0.N) : (iblk m c 8 t : Vec Ideal S1x195 .f32) = V m c main_v10 := by
  obtain ⟨-, -, -, -, -, -, e, -⟩ := idx_whole t
  funext y
  unfold iblk
  rw [View.read_apply]
  show V m c main_v10 _ = V m c main_v10 _
  congr 1
  funext a
  apply Fin.ext
  match a with
  | ⟨0, _⟩ => show win0_8.index t (0 : Fin 2) * 1 + 1 * (y 0).val = (y 0).val; rw [e]; omega
  | ⟨1, _⟩ => show win0_8.index t (1 : Fin 2) * 195 + 1 * (y 1).val = (y 1).val; rw [e]; omega

theorem blk9_eq (c : Dev nD) (t : Fin cfg0.N) : (iblk m c 9 t : Vec Ideal S1x195 .f32) = V m c main_v11 := by
  obtain ⟨-, -, -, -, -, -, -, e, -⟩ := idx_whole t
  funext y
  unfold iblk
  rw [View.read_apply]
  show V m c main_v11 _ = V m c main_v11 _
  congr 1
  funext a
  apply Fin.ext
  match a with
  | ⟨0, _⟩ => show win0_9.index t (0 : Fin 2) * 1 + 1 * (y 0).val = (y 0).val; rw [e]; omega
  | ⟨1, _⟩ => show win0_9.index t (1 : Fin 2) * 195 + 1 * (y 1).val = (y 1).val; rw [e]; omega

theorem blk10_eq (c : Dev nD) (t : Fin cfg0.N) : (iblk m c 10 t : Vec Ideal S1x78 .f32) = V m c main_v12 := by
  obtain ⟨-, -, -, -, -, -, -, -, e, -⟩ := idx_whole t
  funext y
  unfold iblk
  rw [View.read_apply]
  show V m c main_v12 _ = V m c main_v12 _
  congr 1
  funext a
  apply Fin.ext
  match a with
  | ⟨0, _⟩ => show win0_10.index t (0 : Fin 2) * 1 + 1 * (y 0).val = (y 0).val; rw [e]; omega
  | ⟨1, _⟩ => show win0_10.index t (1 : Fin 2) * 78 + 1 * (y 1).val = (y 1).val; rw [e]; omega

theorem blk11_eq (c : Dev nD) (t : Fin cfg0.N) : (iblk m c 11 t : Vec Ideal S1x78 .f32) = V m c main_v13 := by
  obtain ⟨-, -, -, -, -, -, -, -, -, e⟩ := idx_whole t
  funext y
  unfold iblk
  rw [View.read_apply]
  show V m c main_v13 _ = V m c main_v13 _
  congr 1
  funext a
  apply Fin.ext
  match a with
  | ⟨0, _⟩ => show win0_11.index t (0 : Fin 2) * 1 + 1 * (y 0).val = (y 0).val; rw [e]; omega
  | ⟨1, _⟩ => show win0_11.index t (1 : Fin 2) * 78 + 1 * (y 1).val = (y 1).val; rw [e]; omega

/-! ## What the region leaves in the result array -/

/-- The network's numbers as the region finds them: the two weight arrays transposed, the rest as one-row arrays. -/
abbrev paramsV (c : Dev nD) : Params :=
  TileRow.params (V m c main_v3) (V m c main_v6) (V m c main_v5) (V m c main_v7) (V m c main_v8) (V m c main_v9)
    (V m c main_v10) (V m c main_v11) (V m c main_v12) (V m c main_v13)

theorem catBig : Shape.Concatenates [S524288x39, S524288x39] S524288x78 1 := by decide

/-- A tile's two blocks laid side by side are rows of the two arrays laid side by side, when the blocks are those rows of the arrays. -/
theorem pay2_rows (x0 x1 : Vec Ideal S2048x39 .f32) (X0 X1 : S524288x39.Idx → EReal) (σ : Fin 2048 → Fin 524288)
    (h0 : Rows σ x0 X0) (h1 : Rows σ x1 X1) :
    Rows σ (k0_pay2 x0 x1) (concatenate S524288x78 1 [⟨S524288x39, X0⟩, ⟨S524288x39, X1⟩] catBig) := by
  unfold k0_pay2
  dsimp only
  rw [shapeCast_self, shapeCast_self]
  exact Rows.catCols concatenates_S2048x39_S2048x39_S2048x78_d1 catBig h0 h1

/-- The two inputs side by side, as one array of 524288 rows of 78. -/
def joined (c : Dev nD) : S524288x78.Idx → EReal :=
  concatenate S524288x78 1 [⟨S524288x39, (V m c main_v0 : S524288x39.Idx → EReal)⟩, ⟨S524288x39, (V m c main_v1 : S524288x39.Idx → EReal)⟩] catBig

/-- The result array: row r is the network of row r of the joined inputs. -/
def G (c : Dev nD) : S524288x78.Idx → EReal := fun i => netMul (paramsV m c) (fun d => joined m c (ix2 (i 0) d)) (i 1)

/-- What point t stores at (p, j) is the result array's entry in row 2048·t + p. -/
theorem stored_eq (c : Dev nD) (t : Fin cfg0.N) (p : Fin 2048) (j : Fin 78) :
    k0_pay1 (k0_pay2 (iblk m c 0 t) (iblk m c 1 t))
        (k0_pay4 (k0_pay3 (iblk m c 0 t) (iblk m c 1 t) (iblk m c 2 t) (iblk m c 3 t) (iblk m c 6 t) (iblk m c 8 t)) (iblk m c 9 t)
          (iblk m c 4 t) (iblk m c 5 t) (iblk m c 7 t) (iblk m c 10 t)) (k0_pay5 (iblk m c 11 t)) (ix2 p j)
      = G m c (ix2 (rowAt t p) j) := by
  refine (TileRow.stored_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p j).trans ?_
  rw [blk2_eq, blk3_eq, blk4_eq, blk5_eq, blk6_eq, blk7_eq, blk8_eq, blk9_eq, blk10_eq, blk11_eq]
  have hrow : (fun d => k0_pay2 (iblk m c 0 t) (iblk m c 1 t) (ix2 p d)) = fun d => joined m c (ix2 (rowAt t p) d) :=
    funext fun d => pay2_rows (iblk m c 0 t) (iblk m c 1 t) _ _ (rowAt t) (blk0_apply m c t) (blk1_apply m c t) p d
  rw [hrow]
  rfl

/-- WHAT POINT t WRITES BACK is block t of the result array. -/
theorem flushed_eq (c : Dev nD) (t : Fin cfg0.N) :
    (dats m 0 c).flushed 12 t = ((cfg0.win 12).blk t).view.read (Elt Ideal) (G m c) := by
  obtain ⟨-, -, -, -, e0, e1⟩ := idx_rows t
  show (cfg0.win 12).cut (grid0.coords t) ((dats m 0 c).after 12 t) = _
  rw [after0_12]
  unfold out0_12
  rw [View.canon_unit_zero hz]
  simp only [View.ld_unit_zero (S := S2048x39) hz, View.ld_unit_zero (S := S78x195) hz, View.ld_unit_zero (S := S1x195) hz,
    View.ld_unit_zero (S := S1x1) hz, View.ld_unit_zero (S := S195x78) hz, View.ld_unit_zero (S := S1x78) hz]
  funext y
  refine ((congrArg _ (eq_ix2 (n0 := 2048) (n1 := 78) y)).trans (stored_eq m c t (y 0) (y 1))).trans ?_
  rw [View.read_apply]
  show G m c _ = G m c _
  congr 1
  funext a
  apply Fin.ext
  match a with
  | ⟨0, _⟩ => show 2048 * t.val + (y 0).val = win0_12.index t (0 : Fin 2) * 2048 + 1 * (y 0).val; rw [e0]; omega
  | ⟨1, _⟩ => show (y 1).val = win0_12.index t (1 : Fin 2) * 78 + 1 * (y 1).val; rw [e1]; omega

/-- An index of the result array is in point t's block iff each coordinate is in the block's range on its axis. -/
theorem mem_blk (t : Fin cfg0.N) (i : S524288x78.Idx) :
    i ∈ ((cfg0.win 12).blk t).view.set ↔ ∀ a : Fin 2, win0_12.index t a * S2048x78.size a ≤ (i a).val ∧ (i a).val < win0_12.index t a * S2048x78.size a + S2048x78.size a := by
  show i ∈ ((View.whole main_v14).slice (win0_12.rect t)).set ↔ _
  rw [View.set_slice_whole, Rect.mem_set_unit]
  exact Iff.rfl

/-- The blocks tile the result array (row r is in the block of point r / 2048), so it ends holding G. -/
theorem final (c : Dev nD) : (dats m 0 c).arrAt 12 cfg0.N = G m c :=
  (dats m 0 c).arrAt_eq_of_cover 12 (G m c) (fun t _ => flushed_eq m c t) fun i => by
    have hi0 : (i 0).val < 524288 := (i 0).isLt
    have hi1 : (i 1).val < 78 := (i 1).isLt
    have hN : cfg0.N = 256 := N_0
    obtain ⟨-, -, -, -, e0, e1⟩ := idx_rows ⟨(i 0).val / 2048, by omega⟩
    refine ⟨⟨(i 0).val / 2048, by omega⟩, flush0_12 _, ?_⟩
    rw [mem_blk]
    intro a
    match a with
    | ⟨0, _⟩ =>
      show win0_12.index ⟨(i 0).val / 2048, _⟩ (0 : Fin 2) * 2048 ≤ (i 0).val ∧ (i 0).val < win0_12.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win0_12.index ⟨(i 0).val / 2048, _⟩ (1 : Fin 2) * 78 ≤ (i 1).val ∧ (i 1).val < win0_12.index ⟨(i 0).val / 2048, _⟩ (1 : Fin 2) * 78 + 78
      rw [e1]; omega

/-! ## The lines after the region -/

/-- The first value @main returns: the result array reshaped to 256 × 2048 rows, columns 0 … 38. -/
theorem out_lo (c : Dev nD) : Pipeline.afterTail₀ cfgs (dats m) 0 (V0 m) [hostOps1] c main_v16
    = extractStridedSlice S256x2048x39 ![0, 0, 0] (shapeCast S256x2048x78 (G m c) shapeCasts_S524288x78_S256x2048x78)
        slices_S256x2048x78_S256x2048x39_0_0_0 := by
  unfold Pipeline.afterTail₀
  show StableHlo.after hostOps1 _ (Proc.devRef .tc main_v16) = _
  after_results
  rw [show Pipeline.withArrays (cfgs 0).spec c (V0 m c) (fun w => (dats m 0 c).arrAt w (cfgs 0).N) (Proc.devRef .tc main_v14) = G m c from
    (Pipeline.withArrays_arr spec0 launch0.win.arr_inj c _ _ 12).trans (final m c)]
  rfl

/-- The second: columns 39 … 77. -/
theorem out_hi (c : Dev nD) : Pipeline.afterTail₀ cfgs (dats m) 0 (V0 m) [hostOps1] c main_v17
    = extractStridedSlice S256x2048x39 ![0, 0, 39] (shapeCast S256x2048x78 (G m c) shapeCasts_S524288x78_S256x2048x78)
        slices_S256x2048x78_S256x2048x39_0_0_39 := by
  unfold Pipeline.afterTail₀
  show StableHlo.after hostOps1 _ (Proc.devRef .tc main_v17) = _
  after_results
  rw [show Pipeline.withArrays (cfgs 0).spec c (V0 m c) (fun w => (dats m 0 c).arrAt w (cfgs 0).N) (Proc.devRef .tc main_v14) = G m c from
    (Pipeline.withArrays_arr spec0 launch0.win.arr_inj c _ _ 12).trans (final m c)]
  rfl

/-- Entry (b, t, j) of the reshaped result array is entry (2048·b + t, j) of the result array. -/
theorem reshaped_apply (c : Dev nD) (b : Fin 256) (t : Fin 2048) (j : Fin 78) :
    shapeCast S256x2048x78 (G m c) shapeCasts_S524288x78_S256x2048x78 (ix3 b t j)
      = G m c (ix2 ⟨2048 * b.val + t.val, by have := b.isLt; have := t.isLt; omega⟩ j) := by
  refine shapeCast_apply (G m c) shapeCasts_S524288x78_S256x2048x78 (ix3 b t j) (ix2 ⟨2048 * b.val + t.val, _⟩ j) ?_
  rw [Shape.rowMajor_val_two, Shape.rowMajor_val_three]
  show (2048 * b.val + t.val) * 78 + j.val = (b.val * 2048 + t.val) * 78 + j.val
  omega

/-- Row 2048·b + t of an input reshaped to 524288 rows is token (b, t)'s row. -/
theorem flat_apply (a : S256x2048x39.Idx → EReal) (b : Fin 256) (t : Fin 2048) (d : Fin 39) :
    shapeCast S524288x39 a shapeCasts_S256x2048x39_S524288x39 (ix2 ⟨2048 * b.val + t.val, by have := b.isLt; have := t.isLt; omega⟩ d)
      = a (ix3 b t d) := by
  refine shapeCast_apply a shapeCasts_S256x2048x39_S524288x39 (ix2 ⟨2048 * b.val + t.val, _⟩ d) (ix3 b t d) ?_
  rw [Shape.rowMajor_val_two, Shape.rowMajor_val_three]
  show (b.val * 2048 + t.val) * 39 + d.val = (2048 * b.val + t.val) * 39 + d.val
  omega

/-- The joined arrays' row 2048·b + t is token (b, t)'s row of the two arguments side by side. -/
theorem joined_row (c : Dev nD) (b : Fin 256) (t : Fin 2048) :
    (fun d => joined m c (ix2 ⟨2048 * b.val + t.val, by have := b.isLt; have := t.isLt; omega⟩ d))
      = rowOf (m ((c : Thread nD τ).loc main_arg0)) (m ((c : Thread nD τ).loc main_arg1)) b t := by
  funext d
  unfold rowOf joined
  by_cases h : d.val < 39
  · rw [dif_pos h, catCols_left catBig _ _ _ d ⟨d.val, h⟩ rfl, V_v0, flat_apply]
  · rw [dif_neg h, catCols_right catBig _ _ _ d ⟨d.val - 39, by have := d.isLt; omega⟩ (by show d.val - 39 + 39 = d.val; omega),
      V_v1, flat_apply]

/-- The network's numbers as the region finds them are those of the arguments: a transposed matrix read at (d, h) is the
    matrix at (h, d), and a vector cast to one row reads its own entries. -/
theorem paramsV_eq (c : Dev nD) : paramsV m c
    = paramsOf (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) := by
  unfold paramsV TileRow.params paramsOf
  rw [V_v3, V_v5, V_v6, V_v7, V_v8, V_v9, V_v10, V_v11, V_v12, V_v13]
  simp only [shapeCast_a_1a_apply]
  congr 1
  · funext h d; exact transpose_ix2_apply _ _ d h
  · funext d h; exact transpose_ix2_apply _ _ h d

/-- THE FIRST RESULT, entry by entry. -/
theorem lo_eq (c : Dev nD) :
    extractStridedSlice S256x2048x39 ![0, 0, 0] (shapeCast S256x2048x78 (G m c) shapeCasts_S524288x78_S256x2048x78)
        slices_S256x2048x78_S256x2048x39_0_0_0
      = resultLo netMul
          (paramsOf (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
            (m ((c : Thread nD τ).loc main_arg11)))
          (m ((c : Thread nD τ).loc main_arg0)) (m ((c : Thread nD τ).loc main_arg1)) := by
  funext i
  obtain ⟨b, t, j, rfl⟩ : ∃ (b : Fin 256) (t : Fin 2048) (j : Fin 39), i = ix3 b t j := ⟨i 0, i 1, i 2, eq_ix3 i⟩
  rw [extractStridedSlice_apply ![0, 0, 0] _ slices_S256x2048x78_S256x2048x39_0_0_0 (ix3 b t j)
    (ix3 b t ⟨j.val, by have := j.isLt; omega⟩) (fun a => match a with
      | ⟨0, _⟩ => by show b.val = 0 + b.val; omega
      | ⟨1, _⟩ => by show t.val = 0 + t.val; omega
      | ⟨2, _⟩ => by show j.val = 0 + j.val; omega), reshaped_apply]
  unfold G resultLo
  rw [paramsV_eq, joined_row]

/-- THE SECOND RESULT, entry by entry. -/
theorem hi_eq (c : Dev nD) :
    extractStridedSlice S256x2048x39 ![0, 0, 39] (shapeCast S256x2048x78 (G m c) shapeCasts_S524288x78_S256x2048x78)
        slices_S256x2048x78_S256x2048x39_0_0_39
      = resultHi netMul
          (paramsOf (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
            (m ((c : Thread nD τ).loc main_arg11)))
          (m ((c : Thread nD τ).loc main_arg0)) (m ((c : Thread nD τ).loc main_arg1)) := by
  funext i
  obtain ⟨b, t, j, rfl⟩ : ∃ (b : Fin 256) (t : Fin 2048) (j : Fin 39), i = ix3 b t j := ⟨i 0, i 1, i 2, eq_ix3 i⟩
  rw [extractStridedSlice_apply ![0, 0, 39] _ slices_S256x2048x78_S256x2048x39_0_0_39 (ix3 b t j)
    (ix3 b t ⟨39 + j.val, by have := j.isLt; omega⟩) (fun a => match a with
      | ⟨0, _⟩ => by show b.val = 0 + b.val; omega
      | ⟨1, _⟩ => by show t.val = 0 + t.val; omega
      | ⟨2, _⟩ => by show 39 + j.val = 39 + j.val; omega), reshaped_apply]
  unfold G resultHi
  rw [paramsV_eq, joined_row]

/-! ## The run, read -/

/-- Every weakly fair execution of the tiled program terminates with the two results at the network (the
    reciprocal-square-root spelling) of each token's row, and the arguments unchanged. -/
theorem run : θ_run defs (onTc (τ := τ) (main (F := Ideal))) ⟨m, fun _ => 0, ρ⟩ fun r => ∀ c : Dev nD,
      r.2.mem ((c.tc : Thread nD τ).loc main_v16)
        = resultLo netMul
            (paramsOf (m ((c : Thread nD τ).loc main_arg2)) (m ((c : Thread nD τ).loc main_arg3)) (m ((c : Thread nD τ).loc main_arg4))
              (m ((c : Thread nD τ).loc main_arg5)) (m ((c : Thread nD τ).loc main_arg6)) (m ((c : Thread nD τ).loc main_arg7))
              (m ((c : Thread nD τ).loc main_arg8)) (m ((c : Thread nD τ).loc main_arg9)) (m ((c : Thread nD τ).loc main_arg10))
              (m ((c : Thread nD τ).loc main_arg11)))
            (m ((c : Thread nD τ).loc main_arg0)) (m ((c : Thread nD τ).loc main_arg1))
      ∧ r.2.mem ((c.tc : Thread nD τ).loc main_v17)
        = resultHi netMul
            (paramsOf (m ((c : Thread nD τ).loc main_arg2)) (m ((c : Thread nD τ).loc main_arg3)) (m ((c : Thread nD τ).loc main_arg4))
              (m ((c : Thread nD τ).loc main_arg5)) (m ((c : Thread nD τ).loc main_arg6)) (m ((c : Thread nD τ).loc main_arg7))
              (m ((c : Thread nD τ).loc main_arg8)) (m ((c : Thread nD τ).loc main_arg9)) (m ((c : Thread nD τ).loc main_arg10))
              (m ((c : Thread nD τ).loc main_arg11)))
            (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(((h c).2 main_v16 (Pipeline.mem_restRefs_of main_v16 (by decide) (by decide))).trans (out_lo m c)).trans (lo_eq m c),
      (((h c).2 main_v17 (Pipeline.mem_restRefs_of main_v17 (by decide) (by decide))).trans (out_hi m c)).trans (hi_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.Whole

end
-- ==== Proof.RefRun.lean ====
/-
  The reference program's run, read back over its stages.

  @main of the reference is a straight line of 84 host operations (the list `RunOps.ops`), so every weakly fair
  execution ends with each buffer at the fold `after ops V` of the operations' results over the launch contents `V`
  (`run_seq`). The data flow of the line is a DAG: a layer's pre-activation feeds a compare, a product and a select,
  a row's mean feeds two broadcasts, the centred row is squared. The composed term of a result therefore repeats its
  shared parts many times over. The stage functions `ReadP.val_<buffer>` keep the sharing: each is its operation applied
  to the earlier stages. This module proves that the fold holds the stages, without ever forming a composed term:

  * the line is cut into four stretches; `upTo i V` is what the buffers hold before operation `i`, and
    `upTo (i + n) V` is the stretch `seg i n` run from `upTo i V` (`upTo_add`);
  * for each stretch, over an ARBITRARY valuation `W`: if `W` holds the earlier stages at the buffers the stretch reads,
    then after the stretch its last buffer holds the next stage (`s1_v0` … `s4_v71`);
  * no operation writes an argument of @main, and each writes one buffer of the list `written`, so a buffer outside
    that list holds at every point what it held at the launch (`ops_writes`, `upTo_keeps`).
-/
import proofs.«147949_j55018531062716_1_alg».proof.Proof.RefRunOps
import proofs.«147949_j55018531062716_1_alg».proof.Proof.RefRead

noncomputable section

namespace Cert.ReferenceIdeal.RefRun

open Cert.ReferenceIdeal Cert.ReferenceIdeal.Gen Cert.ReferenceIdeal.RunOps Idealize.ShloMosaic Idealize.ShloMosaic.TcCoe Idealize.SL.Sem Idealize.ShloMosaic.StableHlo

variable {F : FTy → Type} [FloatOps F]

-- a TensorCore reference as the device buffer it names
set_option quotPrecheck false in
local notation:max "𝔟" r:max => Proc.devRef .tc r

/-! ## The line in stretches -/

/-- The operations `i, …, i + n - 1` of the line. -/
abbrev seg (i n : Nat) : List (HloOp τ sig (Elt F)) := ((ops (F := F)).drop i).take n

/-- What the buffers hold before operation `i`: the first `i` operations run from `V`. -/
abbrev upTo (i : Nat) (V : Valuation τ sig (Elt F)) : Valuation τ sig (Elt F) := after ((ops (F := F)).take i) V

/-- Running on from operation `i` for `n` operations. -/
theorem upTo_add (V : Valuation τ sig (Elt F)) (i n : Nat) : upTo (i + n) V = after (seg i n) (upTo i V) := by
  unfold upTo seg
  rw [List.take_add, StableHlo.after_append]

/-! ## What the line writes -/

/-- The buffers the line writes, in the order of its operations: each operation writes one, none is an argument. -/
abbrev written : List (Ref sig .tc) :=
  [main_v0, main_v1, main_v2, main_v3, main_v4, main_cst, main_v5, main_v6, main_v7, main_v8, main_v9, main_v10,
   main_cst_0, main_v11, main_v12, main_cst_1, main_v13, main_v14, main_v15, main_v16, main_v17, main_cst_2, main_v18,
   main_v19, main_cst_3, main_v20, main_v21, main_v22, main_v23, main_cst_4, main_v24, main_v25, main_v26, main_v27,
   main_v28, main_v29, main_v30, main_v31, main_v32, main_v33, main_v34, main_v35, main_v36, main_v37, main_v38,
   main_cst_5, main_v39, main_v40, main_v41, main_v42, main_v43, main_v44, main_cst_6, main_v45, main_v46, main_cst_7,
   main_v47, main_v48, main_v49, main_v50, main_v51, main_cst_8, main_v52, main_v53, main_cst_9, main_v54, main_v55,
   main_v56, main_v57, main_cst_10, main_v58, main_v59, main_v60, main_v61, main_v62, main_v63, main_v64, main_v65,
   main_v66, main_v67, main_v68, main_v69, main_v70, main_v71]

/-- A single written buffer that is on a list is within the list's buffers. -/
private theorem wsub {L : List (Ref sig .tc)} {y : Ref sig .tc} (hy : y ∈ L) :
    ({𝔟 y} : Finset (DevRef τ sig)) ⊆ (L.map (Proc.devRef (τ := τ) .tc)).toFinset :=
  Finset.singleton_subset_iff.2 (List.mem_toFinset.2 (List.mem_map.2 ⟨y, hy, rfl⟩))

/-- Every operation of the line writes a buffer of `written` (operation by operation: its one result buffer is there). -/
theorem ops_writes : (ops (F := F)).Forall fun op => op.writes ⊆ (written.map (Proc.devRef (τ := τ) .tc)).toFinset :=
  ⟨wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide),
   wsub (by decide), wsub (by decide), wsub (by decide), wsub (by decide), wsub (by decide), wsub (by decide)⟩

/-- A buffer the line never writes holds, before any operation `i`, what it held at the start. -/
theorem upTo_keeps (V : Valuation τ sig (Elt F)) (i : Nat) {r : Ref sig .tc} (hr : r ∉ written) : upTo i V 𝔟 r = V 𝔟 r :=
  after_of_writes_sub _ V
    (List.forall_iff_forall_mem.2 fun op h => List.forall_iff_forall_mem.1 ops_writes op (List.take_subset i _ h)) hr

/-- … and after the whole line. -/
theorem after_keeps (V : Valuation τ sig (Elt F)) {r : Ref sig .tc} (hr : r ∉ written) : after ops V 𝔟 r = V 𝔟 r :=
  after_of_writes_sub _ V ops_writes hr

/-! ## The stretches, over an arbitrary valuation

Each lemma runs one stretch from a valuation `W` that is only known at the buffers the stretch reads, and reads one
buffer afterwards: the stretch's operations compose to the stage of that buffer over the stages `W` holds. -/

section Stretches

variable (W : Valuation τ sig (Elt F))
  {a0 a1 : (⟨S256x2048x39, .f32⟩ : BufTy).Contents (Elt F)} {a2 : (⟨S195x78, .f32⟩ : BufTy).Contents (Elt F)}
  {a3 : (⟨S195, .f32⟩ : BufTy).Contents (Elt F)} {a4 : (⟨S78x195, .f32⟩ : BufTy).Contents (Elt F)}
  {a5 : (⟨S78, .f32⟩ : BufTy).Contents (Elt F)} {a6 a7 : (⟨S1, .f32⟩ : BufTy).Contents (Elt F)}
  {a8 a9 : (⟨S195, .f32⟩ : BufTy).Contents (Elt F)} {a10 a11 : (⟨S78, .f32⟩ : BufTy).Contents (Elt F)}

/-- Operations 0–11 begin by joining the two inputs along the feature axis: `x = [arg0 | arg1]`, 78 features a row. -/
theorem s1_v0 (h0 : W (𝔟 main_arg0) = a0) (h1 : W (𝔟 main_arg1) = a1) :
    after (seg (F := F) 0 12) W (𝔟 main_v0) = ReadP.val_main_v0 (F := F) a0 a1 := by
  show after [_, _, _, _, _, _, _, _, _, _, _, _] W _ = _
  after_results_simp
  rw [h0, h1]
  rfl

/-- Operations 0–11 go on to the first dense layer `h = x · arg2ᵀ + arg3` (195 features) and its parametric ReLU
    `h ≥ 0 ? h : arg6 · h`: the pre-activation is read three times (compare, product, select), once in its stage. -/
theorem s1_v10 (h0 : W (𝔟 main_arg0) = a0) (h1 : W (𝔟 main_arg1) = a1) (h2 : W (𝔟 main_arg2) = a2)
    (h3 : W (𝔟 main_arg3) = a3) (h6 : W (𝔟 main_arg6) = a6) :
    after (seg (F := F) 0 12) W (𝔟 main_v10) = ReadP.val_main_v10 (F := F) a0 a1 a2 a3 a6 := by
  show after [_, _, _, _, _, _, _, _, _, _, _, _] W _ = _
  after_results_simp
  rw [h0, h1, h2, h3, h6]
  rfl

/-- Operations 12–44 normalise each row of the activation over its 195 features (the mean, the centred row, the mean
    of its square, `+ ε`, the root, the quotient), scale by `arg8` and shift by `arg9`, and apply the second dense layer
    `· arg4ᵀ + arg5` (78 features). The activation is read three times and the mean twice. -/
theorem s2_v38 (h10 : W (𝔟 main_v10) = ReadP.val_main_v10 (F := F) a0 a1 a2 a3 a6)
    (h4 : W (𝔟 main_arg4) = a4) (h5 : W (𝔟 main_arg5) = a5) (h8 : W (𝔟 main_arg8) = a8) (h9 : W (𝔟 main_arg9) = a9) :
    after (seg (F := F) 12 33) W (𝔟 main_v38) = ReadP.val_main_v38 (F := F) a0 a1 a2 a3 a4 a5 a6 a8 a9 := by
  show after [_, _, _, _, _, _, _, _, _, _, _, _, _, _, _, _, _, _, _, _, _, _, _, _, _, _, _, _, _, _, _, _, _] W _ = _
  after_results_simp
  rw [h10, h4, h5, h8, h9]
  rfl

/-- Operations 45–51 are the second parametric ReLU, `g ≥ 0 ? g : arg7 · g` of the second layer's pre-activation `g`. -/
theorem s3_v44 (h38 : W (𝔟 main_v38) = ReadP.val_main_v38 (F := F) a0 a1 a2 a3 a4 a5 a6 a8 a9) (h7 : W (𝔟 main_arg7) = a7) :
    after (seg (F := F) 45 7) W (𝔟 main_v44) = ReadP.val_main_v44 (F := F) a0 a1 a2 a3 a4 a5 a6 a7 a8 a9 := by
  show after [_, _, _, _, _, _, _] W _ = _
  after_results_simp
  rw [h38, h7]
  rfl

/-- Operations 12–51 leave the joined input `x` where the first stretch put it. -/
theorem s23_keeps_v0 : after (seg (F := F) 12 40) W (𝔟 main_v0) = W (𝔟 main_v0) := by
  show after [_, _, _, _, _, _, _, _, _, _, _, _, _, _, _, _, _, _, _, _, _, _, _, _, _, _, _, _, _, _, _, _, _, _, _, _, _, _, _, _] W _ = _
  after_results_simp

/-- Operations 52–83 normalise each row of the second activation over its 78 features, scale by `arg10`, shift by
    `arg11`, add the joined input `x` back, and cut the sum into its two halves of 39 features: the first half. -/
theorem s4_v70 (h44 : W (𝔟 main_v44) = ReadP.val_main_v44 (F := F) a0 a1 a2 a3 a4 a5 a6 a7 a8 a9)
    (h10 : W (𝔟 main_arg10) = a10) (h11 : W (𝔟 main_arg11) = a11) (h0 : W (𝔟 main_v0) = ReadP.val_main_v0 (F := F) a0 a1) :
    after (seg (F := F) 52 32) W (𝔟 main_v70) = ReadP.val_main_v70 (F := F) a0 a1 a2 a3 a4 a5 a6 a7 a8 a9 a10 a11 := by
  show after [_, _, _, _, _, _, _, _, _, _, _, _, _, _, _, _, _, _, _, _, _, _, _, _, _, _, _, _, _, _, _, _] W _ = _
  after_results_simp
  rw [h44, h10, h11, h0]
  rfl

/-- … and the second half. -/
theorem s4_v71 (h44 : W (𝔟 main_v44) = ReadP.val_main_v44 (F := F) a0 a1 a2 a3 a4 a5 a6 a7 a8 a9)
    (h10 : W (𝔟 main_arg10) = a10) (h11 : W (𝔟 main_arg11) = a11) (h0 : W (𝔟 main_v0) = ReadP.val_main_v0 (F := F) a0 a1) :
    after (seg (F := F) 52 32) W (𝔟 main_v71) = ReadP.val_main_v71 (F := F) a0 a1 a2 a3 a4 a5 a6 a7 a8 a9 a10 a11 := by
  show after [_, _, _, _, _, _, _, _, _, _, _, _, _, _, _, _, _, _, _, _, _, _, _, _, _, _, _, _, _, _, _, _] W _ = _
  after_results_simp
  rw [h44, h10, h11, h0]
  rfl

end Stretches

/-! ## The line, stretch after stretch -/

/-- After the whole line the two result buffers hold the last two stages over the arguments' contents at the start:
    the stage of each stretch's last buffer is handed to the next stretch, the arguments by `upTo_keeps`. -/
theorem after_results_eq (V : Valuation τ sig (Elt F)) :
    after ops V (𝔟 main_v70) = ReadP.val_main_v70 (F := F) (V (𝔟 main_arg0)) (V (𝔟 main_arg1)) (V (𝔟 main_arg2)) (V (𝔟 main_arg3)) (V (𝔟 main_arg4)) (V (𝔟 main_arg5)) (V (𝔟 main_arg6)) (V (𝔟 main_arg7)) (V (𝔟 main_arg8)) (V (𝔟 main_arg9)) (V (𝔟 main_arg10)) (V (𝔟 main_arg11))
    ∧ after ops V (𝔟 main_v71) = ReadP.val_main_v71 (F := F) (V (𝔟 main_arg0)) (V (𝔟 main_arg1)) (V (𝔟 main_arg2)) (V (𝔟 main_arg3)) (V (𝔟 main_arg4)) (V (𝔟 main_arg5)) (V (𝔟 main_arg6)) (V (𝔟 main_arg7)) (V (𝔟 main_arg8)) (V (𝔟 main_arg9)) (V (𝔟 main_arg10)) (V (𝔟 main_arg11)) := by
  have e45 : upTo 45 V = after (seg 12 33) (upTo 12 V) := upTo_add V 12 33
  have e52 : upTo 52 V = after (seg 45 7) (upTo 45 V) := upTo_add V 45 7
  have e52' : upTo 52 V = after (seg 12 40) (upTo 12 V) := upTo_add V 12 40
  have e84 : after ops V = after (seg 52 32) (upTo 52 V) := upTo_add V 52 32
  have k (i : Nat) {r : Ref sig .tc} (hr : r ∉ written) : upTo i V (𝔟 r) = V (𝔟 r) := upTo_keeps V i hr
  have v0 : upTo 12 V (𝔟 main_v0) = ReadP.val_main_v0 (F := F) _ _ := s1_v0 V rfl rfl
  have v10 : upTo 12 V (𝔟 main_v10) = ReadP.val_main_v10 (F := F) _ _ _ _ _ := s1_v10 V rfl rfl rfl rfl rfl
  have v38 : upTo 45 V (𝔟 main_v38) = ReadP.val_main_v38 (F := F)
      (V (𝔟 main_arg0)) (V (𝔟 main_arg1)) (V (𝔟 main_arg2)) (V (𝔟 main_arg3)) (V (𝔟 main_arg4)) (V (𝔟 main_arg5)) (V (𝔟 main_arg6)) (V (𝔟 main_arg8)) (V (𝔟 main_arg9)) := by
    rw [e45]; exact s2_v38 _ v10 (k 12 (by decide)) (k 12 (by decide)) (k 12 (by decide)) (k 12 (by decide))
  have v44 : upTo 52 V (𝔟 main_v44) = ReadP.val_main_v44 (F := F)
      (V (𝔟 main_arg0)) (V (𝔟 main_arg1)) (V (𝔟 main_arg2)) (V (𝔟 main_arg3)) (V (𝔟 main_arg4)) (V (𝔟 main_arg5)) (V (𝔟 main_arg6)) (V (𝔟 main_arg7)) (V (𝔟 main_arg8)) (V (𝔟 main_arg9)) := by
    rw [e52]; exact s3_v44 _ v38 (k 45 (by decide))
  have v0' : upTo 52 V (𝔟 main_v0) = ReadP.val_main_v0 (F := F) (V (𝔟 main_arg0)) (V (𝔟 main_arg1)) := by
    rw [e52', s23_keeps_v0]; exact v0
  rw [e84]
  exact ⟨s4_v70 _ v44 (k 52 (by decide)) (k 52 (by decide)) v0', s4_v71 _ v44 (k 52 (by decide)) (k 52 (by decide)) v0'⟩

/-! ## The run -/

/-- Every operation of the line determines its result (none allocates a buffer at contents not chosen). -/
theorem ops_fresh : ∀ op ∈ (ops (F := F)), op.fresh = ∅ :=
  List.forall_iff_forall_mem.1 (show (ops (F := F)).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- On every device, for any float values, from any memory with zero counters: every weakly fair execution of the
    reference's @main terminates with the two results at the last two stages of the arguments' launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = ReadP.val_main_v70 (F := F)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
      ∧ r.2.mem ((c.tc : Thread nD τ).loc main_v71) = ReadP.val_main_v71 (F := F)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v70).trans (after_results_eq _).1, (h c main_v71).trans (after_results_eq _).2,
       (h c main_arg0).trans (after_keeps _ (by decide)),
       (h c main_arg1).trans (after_keeps _ (by decide)),
       (h c main_arg2).trans (after_keeps _ (by decide)),
       (h c main_arg3).trans (after_keeps _ (by decide)),
       (h c main_arg4).trans (after_keeps _ (by decide)),
       (h c main_arg5).trans (after_keeps _ (by decide)),
       (h c main_arg6).trans (after_keeps _ (by decide)),
       (h c main_arg7).trans (after_keeps _ (by decide)),
       (h c main_arg8).trans (after_keeps _ (by decide)),
       (h c main_arg9).trans (after_keeps _ (by decide)),
       (h c main_arg10).trans (after_keeps _ (by decide)),
       (h c main_arg11).trans (after_keeps _ (by decide))⟩)
    (run_seq scopedRefs_eq scopedSems_eq defs main (fun _ => ops) main_eq (fun _ => ops_sub) m ρ (fun _ => ops_fresh))

end Cert.ReferenceIdeal.RefRun

end
-- ==== Proof.RefRow.lean ====
/-
  The whole-array program's result, entry by entry: at token (b, t) and column j it is the network of RowNet (the
  division-by-the-square-root spelling) of the token's row of the two inputs side by side. Read off the program's stages one
  operation at a time: the affine maps as sums over the contracted coordinate, the means and variances as sums over a
  row from the zero pattern, the broadcasts as reads of the operand at the index's own coordinates.
-/
import proofs.«147949_j55018531062716_1_alg».proof.Proof.RefRead
import proofs.«147949_j55018531062716_1_alg».proof.Proof.RowNet
import Idealize.ShloMosaic.Lib.ValueIdx
import Idealize.ShloMosaic.Lib.Pipeline.Value
import Idealize.ShloMosaic.PureOps.Ideal.Laws

noncomputable section

open scoped BigOperators

namespace Cert.ReferenceIdeal.RefRow

open Cert.ReferenceIdeal Cert.ReferenceIdeal.Gen Cert.ReferenceIdeal.ReadP Idealize.ShloMosaic Idealize.ShloMosaic.ValueIdx RowNet

variable (x0 x1 : (⟨S256x2048x39, .f32⟩ : BufTy).Contents (Elt Ideal)) (x2 : (⟨S195x78, .f32⟩ : BufTy).Contents (Elt Ideal))
  (x3 : (⟨S195, .f32⟩ : BufTy).Contents (Elt Ideal)) (x4 : (⟨S78x195, .f32⟩ : BufTy).Contents (Elt Ideal))
  (x5 : (⟨S78, .f32⟩ : BufTy).Contents (Elt Ideal)) (x6 x7 : (⟨S1, .f32⟩ : BufTy).Contents (Elt Ideal))
  (x8 x9 : (⟨S195, .f32⟩ : BufTy).Contents (Elt Ideal)) (x10 x11 : (⟨S78, .f32⟩ : BufTy).Contents (Elt Ideal))

/-! ## The stages' index maps at a token -/

section Indices

variable (b : Fin 256) (t : Fin 2048)

theorem l1 (h : Fin 195) (k : Fin 78) : lidx_main_v1 (ix3 b t h) k = ix3 b t k := by funext a; fin_cases a <;> rfl
theorem r1 (h : Fin 195) (k : Fin 78) : ridx_main_v1 (ix3 b t h) k = ix2 h k := by funext a; fin_cases a <;> rfl
theorem i3 (h : Fin 195) : idx_main_v2 (idx_main_v3 (ix3 b t h)) = ix1 h := by funext a; fin_cases a; rfl
theorem i8 (h : Fin 195) : idx_main_v7 (idx_main_v8 (ix3 b t h)) = ix1 (0 : Fin 1) := by funext a; fin_cases a; rfl
theorem i11 (k : Fin 195) : idx_main_v11 (ix2 b t) k = ix3 b t k := by funext a; fin_cases a <;> rfl
theorem i12 (u : Fin 1) : idx_main_v12 (ix3 b t u) = ix2 b t := by funext a; fin_cases a <;> rfl
theorem i15 (h : Fin 195) : idx_main_v15 (ix3 b t h) = ix3 b t (0 : Fin 1) := by funext a; fin_cases a <;> rfl
theorem i18 (k : Fin 195) : idx_main_v18 (ix2 b t) k = ix3 b t k := by funext a; fin_cases a <;> rfl
theorem i19 (u : Fin 1) : idx_main_v19 (ix3 b t u) = ix2 b t := by funext a; fin_cases a <;> rfl
theorem i22 (h : Fin 195) : idx_main_v22 (ix3 b t h) = ix3 b t (0 : Fin 1) := by funext a; fin_cases a <;> rfl
theorem i27 (h : Fin 195) : idx_main_v27 (ix3 b t h) = ix3 b t (0 : Fin 1) := by funext a; fin_cases a <;> rfl
theorem i30 (h : Fin 195) : idx_main_v29 (idx_main_v30 (ix3 b t h)) = ix1 h := by funext a; fin_cases a; rfl
theorem i33 (h : Fin 195) : idx_main_v32 (idx_main_v33 (ix3 b t h)) = ix1 h := by funext a; fin_cases a; rfl
theorem l35 (d : Fin 78) (k : Fin 195) : lidx_main_v35 (ix3 b t d) k = ix3 b t k := by funext a; fin_cases a <;> rfl
theorem r35 (d : Fin 78) (k : Fin 195) : ridx_main_v35 (ix3 b t d) k = ix2 d k := by funext a; fin_cases a <;> rfl
theorem i37 (d : Fin 78) : idx_main_v36 (idx_main_v37 (ix3 b t d)) = ix1 d := by funext a; fin_cases a; rfl
theorem i42 (d : Fin 78) : idx_main_v41 (idx_main_v42 (ix3 b t d)) = ix1 (0 : Fin 1) := by funext a; fin_cases a; rfl
theorem i45 (k : Fin 78) : idx_main_v45 (ix2 b t) k = ix3 b t k := by funext a; fin_cases a <;> rfl
theorem i46 (u : Fin 1) : idx_main_v46 (ix3 b t u) = ix2 b t := by funext a; fin_cases a <;> rfl
theorem i49 (d : Fin 78) : idx_main_v49 (ix3 b t d) = ix3 b t (0 : Fin 1) := by funext a; fin_cases a <;> rfl
theorem i52 (k : Fin 78) : idx_main_v52 (ix2 b t) k = ix3 b t k := by funext a; fin_cases a <;> rfl
theorem i53 (u : Fin 1) : idx_main_v53 (ix3 b t u) = ix2 b t := by funext a; fin_cases a <;> rfl
theorem i56 (d : Fin 78) : idx_main_v56 (ix3 b t d) = ix3 b t (0 : Fin 1) := by funext a; fin_cases a <;> rfl
theorem i61 (d : Fin 78) : idx_main_v61 (ix3 b t d) = ix3 b t (0 : Fin 1) := by funext a; fin_cases a <;> rfl
theorem i64 (d : Fin 78) : idx_main_v63 (idx_main_v64 (ix3 b t d)) = ix1 d := by funext a; fin_cases a; rfl
theorem i67 (d : Fin 78) : idx_main_v66 (idx_main_v67 (ix3 b t d)) = ix1 d := by funext a; fin_cases a; rfl

end Indices

/-! ## The first round, at token (b, t) -/

/-- The token's joined row. -/
abbrev row (b : Fin 256) (t : Fin 2048) : Fin 78 → EReal := fun d => val_main_v0 (F := Ideal) x0 x1 (ix3 b t d)

/-- The rectified affine image of the row: 195 numbers. -/
abbrev act1 (b : Fin 256) (t : Fin 2048) : Fin 195 → EReal := fun h =>
  leaky zero32 (x6 (ix1 (0 : Fin 1))) (affine (fun h d => x2 (ix2 h d)) (fun h => x3 (ix1 h)) (row x0 x1 b t) h)

theorem v4_at (b : Fin 256) (t : Fin 2048) (h : Fin 195) :
    val_main_v4 (F := Ideal) x0 x1 x2 x3 (ix3 b t h)
      = affine (fun h d => x2 (ix2 h d)) (fun h => x3 (ix1 h)) (row x0 x1 b t) h := by
  rw [val_main_v4_apply, val_main_v1_apply, val_main_v3_apply, val_main_v2_apply, i3]
  simp only [l1, r1]
  rfl

theorem v10_at (b : Fin 256) (t : Fin 2048) (h : Fin 195) :
    val_main_v10 (F := Ideal) x0 x1 x2 x3 x6 (ix3 b t h) = act1 x0 x1 x2 x3 x6 b t h := by
  rw [val_main_v10_apply, val_main_v6_apply, val_main_v9_apply, val_main_v5_apply, val_main_cst_apply, val_main_v8_apply,
    val_main_v7_apply, i8, v4_at]
  rfl

/-- The mean of the rectified row. -/
theorem v14_at (b : Fin 256) (t : Fin 2048) (u : Fin 1) :
    val_main_v14 (F := Ideal) x0 x1 x2 x3 x6 (ix3 b t u) = Ideal.div (∑ k : Fin 195, act1 x0 x1 x2 x3 x6 b t k) n195 := by
  rw [val_main_v14_apply, val_main_v12_apply, val_main_v13_apply, val_main_cst_1_apply, i12, val_main_v11_apply,
    val_main_cst_0_apply]
  simp only [i11, v10_at]
  show Ideal.div (Ideal.ofBits .f32 0x00000000#32 + _) _ = _
  rw [Ideal.ofBits_zero_f32, zero_add]
  rfl

theorem v16_at (b : Fin 256) (t : Fin 2048) (h : Fin 195) :
    val_main_v16 (F := Ideal) x0 x1 x2 x3 x6 (ix3 b t h) = centred n195 (act1 x0 x1 x2 x3 x6 b t) h := by
  rw [val_main_v16_apply, val_main_v15_apply, i15, v14_at, v10_at]
  rfl

theorem v23_at (b : Fin 256) (t : Fin 2048) (h : Fin 195) :
    val_main_v23 (F := Ideal) x0 x1 x2 x3 x6 (ix3 b t h) = centred n195 (act1 x0 x1 x2 x3 x6 b t) h := by
  rw [val_main_v23_apply, val_main_v22_apply, i22, v14_at, v10_at]
  rfl

/-- The variance plus the floor. -/
theorem v25_at (b : Fin 256) (t : Fin 2048) (u : Fin 1) :
    val_main_v25 (F := Ideal) x0 x1 x2 x3 x6 (ix3 b t u) = spread n195 floor32 (act1 x0 x1 x2 x3 x6 b t) := by
  rw [val_main_v25_apply, val_main_v21_apply, val_main_v19_apply, val_main_v20_apply, val_main_cst_3_apply, val_main_v24_apply,
    val_main_cst_4_apply, i19, val_main_v18_apply, val_main_cst_2_apply]
  simp only [i18, val_main_v17_apply, v16_at]
  show Ideal.div (Ideal.ofBits .f32 0x00000000#32 + _) _ + _ = _
  rw [Ideal.ofBits_zero_f32, zero_add]
  rfl

/-- The hidden row: normalised, scaled and shifted. -/
abbrev hid (b : Fin 256) (t : Fin 2048) : Fin 195 → EReal :=
  normDiv n195 floor32 (act1 x0 x1 x2 x3 x6 b t) (fun h => x8 (ix1 h)) (fun h => x9 (ix1 h))

theorem v34_at (b : Fin 256) (t : Fin 2048) (h : Fin 195) :
    val_main_v34 (F := Ideal) x0 x1 x2 x3 x6 x8 x9 (ix3 b t h) = hid x0 x1 x2 x3 x6 x8 x9 b t h := by
  rw [val_main_v34_apply, val_main_v31_apply, val_main_v28_apply, val_main_v27_apply, i27, val_main_v26_apply, v25_at, v23_at,
    val_main_v30_apply, val_main_v29_apply, i30, val_main_v33_apply, val_main_v32_apply, i33]
  rfl

/-! ## The second round -/

abbrev act2 (b : Fin 256) (t : Fin 2048) : Fin 78 → EReal := fun d =>
  leaky zero32 (x7 (ix1 (0 : Fin 1))) (affine (fun d h => x4 (ix2 d h)) (fun d => x5 (ix1 d)) (hid x0 x1 x2 x3 x6 x8 x9 b t) d)

theorem v38_at (b : Fin 256) (t : Fin 2048) (d : Fin 78) :
    val_main_v38 (F := Ideal) x0 x1 x2 x3 x4 x5 x6 x8 x9 (ix3 b t d)
      = affine (fun d h => x4 (ix2 d h)) (fun d => x5 (ix1 d)) (hid x0 x1 x2 x3 x6 x8 x9 b t) d := by
  rw [val_main_v38_apply, val_main_v35_apply, val_main_v37_apply, val_main_v36_apply, i37]
  simp only [l35, r35, v34_at]
  rfl

theorem v44_at (b : Fin 256) (t : Fin 2048) (d : Fin 78) :
    val_main_v44 (F := Ideal) x0 x1 x2 x3 x4 x5 x6 x7 x8 x9 (ix3 b t d) = act2 x0 x1 x2 x3 x4 x5 x6 x7 x8 x9 b t d := by
  rw [val_main_v44_apply, val_main_v40_apply, val_main_v43_apply, val_main_v39_apply, val_main_cst_5_apply, val_main_v42_apply,
    val_main_v41_apply, i42, v38_at]
  rfl

theorem v48_at (b : Fin 256) (t : Fin 2048) (u : Fin 1) :
    val_main_v48 (F := Ideal) x0 x1 x2 x3 x4 x5 x6 x7 x8 x9 (ix3 b t u)
      = Ideal.div (∑ k : Fin 78, act2 x0 x1 x2 x3 x4 x5 x6 x7 x8 x9 b t k) n78 := by
  rw [val_main_v48_apply, val_main_v46_apply, val_main_v47_apply, val_main_cst_7_apply, i46, val_main_v45_apply,
    val_main_cst_6_apply]
  simp only [i45, v44_at]
  show Ideal.div (Ideal.ofBits .f32 0x00000000#32 + _) _ = _
  rw [Ideal.ofBits_zero_f32, zero_add]
  rfl

theorem v50_at (b : Fin 256) (t : Fin 2048) (d : Fin 78) :
    val_main_v50 (F := Ideal) x0 x1 x2 x3 x4 x5 x6 x7 x8 x9 (ix3 b t d) = centred n78 (act2 x0 x1 x2 x3 x4 x5 x6 x7 x8 x9 b t) d := by
  rw [val_main_v50_apply, val_main_v49_apply, i49, v48_at, v44_at]
  rfl

theorem v57_at (b : Fin 256) (t : Fin 2048) (d : Fin 78) :
    val_main_v57 (F := Ideal) x0 x1 x2 x3 x4 x5 x6 x7 x8 x9 (ix3 b t d) = centred n78 (act2 x0 x1 x2 x3 x4 x5 x6 x7 x8 x9 b t) d := by
  rw [val_main_v57_apply, val_main_v56_apply, i56, v48_at, v44_at]
  rfl

theorem v59_at (b : Fin 256) (t : Fin 2048) (u : Fin 1) :
    val_main_v59 (F := Ideal) x0 x1 x2 x3 x4 x5 x6 x7 x8 x9 (ix3 b t u) = spread n78 floor32 (act2 x0 x1 x2 x3 x4 x5 x6 x7 x8 x9 b t) := by
  rw [val_main_v59_apply, val_main_v55_apply, val_main_v53_apply, val_main_v54_apply, val_main_cst_9_apply, val_main_v58_apply,
    val_main_cst_10_apply, i53, val_main_v52_apply, val_main_cst_8_apply]
  simp only [i52, val_main_v51_apply, v50_at]
  show Ideal.div (Ideal.ofBits .f32 0x00000000#32 + _) _ + _ = _
  rw [Ideal.ofBits_zero_f32, zero_add]
  rfl

/-- The whole network at a token: the second round's normalised row plus the token's own row. -/
theorem v69_at (b : Fin 256) (t : Fin 2048) (d : Fin 78) :
    val_main_v69 (F := Ideal) x0 x1 x2 x3 x4 x5 x6 x7 x8 x9 x10 x11 (ix3 b t d)
      = netDiv (paramsOf x2 x3 x4 x5 x6 x7 x8 x9 x10 x11) (row x0 x1 b t) d := by
  rw [val_main_v69_apply, val_main_v68_apply, val_main_v65_apply, val_main_v62_apply, val_main_v61_apply, i61, val_main_v60_apply,
    v59_at, v57_at, val_main_v64_apply, val_main_v63_apply, i64, val_main_v67_apply, val_main_v66_apply, i67]
  rfl

/-! ## The joined row is the two inputs' rows side by side -/

theorem row_eq (b : Fin 256) (t : Fin 2048) : row x0 x1 b t = rowOf x0 x1 b t := by
  funext d
  unfold rowOf
  show concatenate S256x2048x78 2 [⟨S256x2048x39, x0⟩, ⟨S256x2048x39, x1⟩] concatenates_S256x2048x39_S256x2048x39_S256x2048x78_d2 (ix3 b t d) = _
  by_cases h : d.val < 39
  · rw [dif_pos h]
    exact concatenate_pair_apply_left 2 x0 x1 concatenates_S256x2048x39_S256x2048x39_S256x2048x78_d2 (ix3 b t d) rfl
      (ix3 b t ⟨d.val, h⟩) (fun ax => by
        match ax with
        | ⟨0, _⟩ => rfl
        | ⟨1, _⟩ => rfl
        | ⟨2, _⟩ => rfl)
  · rw [dif_neg h]
    exact concatenate_pair_apply_right 2 x0 x1 concatenates_S256x2048x39_S256x2048x39_S256x2048x78_d2 (ix3 b t d) rfl rfl
      (ix3 b t ⟨d.val - 39, by have := d.isLt; omega⟩) (fun ax hax => by
        match ax with
        | ⟨0, _⟩ => rfl
        | ⟨1, _⟩ => rfl
        | ⟨2, _⟩ => exact absurd rfl hax) (by show d.val - 39 + 39 = d.val; omega)

/-! ## The two results -/

theorem i70 (b : Fin 256) (t : Fin 2048) (j : Fin 39) :
    idx_main_v70 (ix3 b t j) = ix3 b t (⟨j.val, by have := j.isLt; omega⟩ : Fin 78) := by funext a; fin_cases a <;> rfl
theorem i71 (b : Fin 256) (t : Fin 2048) (j : Fin 39) :
    idx_main_v71 (ix3 b t j) = ix3 b t (⟨39 + j.val, by have := j.isLt; omega⟩ : Fin 78) := by funext a; fin_cases a <;> rfl

/-- THE FIRST RESULT: columns 0 … 38 of the network at every token. -/
theorem lo_eq : val_main_v70 (F := Ideal) x0 x1 x2 x3 x4 x5 x6 x7 x8 x9 x10 x11
    = resultLo netDiv (paramsOf x2 x3 x4 x5 x6 x7 x8 x9 x10 x11) x0 x1 := by
  funext i
  obtain ⟨b, t, j, rfl⟩ : ∃ (b : Fin 256) (t : Fin 2048) (j : Fin 39), i = ix3 b t j := ⟨i 0, i 1, i 2, eq_ix3 i⟩
  rw [val_main_v70_apply, i70, v69_at, row_eq]
  rfl

/-- THE SECOND RESULT: columns 39 … 77. -/
theorem hi_eq : val_main_v71 (F := Ideal) x0 x1 x2 x3 x4 x5 x6 x7 x8 x9 x10 x11
    = resultHi netDiv (paramsOf x2 x3 x4 x5 x6 x7 x8 x9 x10 x11) x0 x1 := by
  funext i
  obtain ⟨b, t, j, rfl⟩ : ∃ (b : Fin 256) (t : Fin 2048) (j : Fin 39), i = ix3 b t j := ⟨i 0, i 1, i 2, eq_ix3 i⟩
  rw [val_main_v71_apply, i71, v69_at, row_eq]
  rfl

end Cert.ReferenceIdeal.RefRow

end
-- ==== Proof.lean ====
/- The proof of `Cert.Claim` (proofs.«147949_j55018531062716_1_alg».proof.Defs).

   Both programs compute, for every token (b, t) of the two inputs, one function of the token's row — the inputs' 39 + 39
   numbers side by side —: an affine map to 195 numbers, a leaky rectifier, a normalisation of the row by its mean and
   variance, an affine map back to 78 numbers, the rectifier and the normalisation again, plus the row itself
   (Proof/RowNet.lean). The tiled program contracts the row with the transposed weight blocks on the matrix unit and
   normalises by the RECIPROCAL SQUARE ROOT of the variance plus a floor; the whole-array program contracts with the weight
   matrices as given and DIVIDES by the square root. On extended reals the sums are the same sums, and the two
   normalisations agree wherever the number under the root is above zero or +∞ — which it always is: a sum of squares
   over a positive count, plus a positive floor. So the claim holds without using the finiteness of the inputs.

   The tiled program's run is read off its frame: what a grid point stores (Proof/TileLayers.lean, Proof/TileRow.lean),
   the blocks tiling the result array and the lines around the region (Proof/KernelArray.lean). The whole-array program's
   run is stated over its stages, one operation at a time (Proof/RefRun.lean), and read at an index (Proof/RefRow.lean). -/
import proofs.«147949_j55018531062716_1_alg».proof.Defs
import proofs.«147949_j55018531062716_1_alg».proof.Proof.Gen.Kernel
import proofs.«147949_j55018531062716_1_alg».proof.Proof.Gen.Kernel.Frame
import proofs.«147949_j55018531062716_1_alg».proof.Proof.Gen.KernelIdeal
import proofs.«147949_j55018531062716_1_alg».proof.Proof.Gen.KernelIdeal.Frame
import proofs.«147949_j55018531062716_1_alg».proof.Proof.Gen.ReferenceIdeal
import proofs.«147949_j55018531062716_1_alg».proof.Proof.Gen.Pre_finite_inputs
import proofs.«147949_j55018531062716_1_alg».proof.Proof.KernelArray
import proofs.«147949_j55018531062716_1_alg».proof.Proof.RefRun
import proofs.«147949_j55018531062716_1_alg».proof.Proof.RefRow
import Idealize.ShloMosaic.Adequacy
import Idealize.ShloMosaic.Init

noncomputable section

namespace Cert.Proof

open Idealize.ShloMosaic Idealize.SL.Sem RowNet

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run (F := Ideal) m ρ)

/-- From memories that agree on the arguments the two idealized programs end with the same two results: the network of
    each token's row, in the division spelling (the tiled program's multiplication spelling is equal to it). -/
theorem algebraic : Cert.algebraic_KernelIdeal_ReferenceIdeal := by
  intro m ρ m' ρ' _ hagree
  refine ⟨fun c => resultLo netDiv (paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => resultHi netDiv (paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (resultLo_eq _ _ _), (h c).2.1.trans (resultHi_eq _ _ _), (h c).2.2⟩)
      (Cert.KernelIdeal.Whole.run m ρ)
  · refine (θ_run Cert.ReferenceIdeal.defs _ _).mono (fun _ h c => ?_) (Cert.ReferenceIdeal.RefRun.run (F := Ideal) m' ρ')
    obtain ⟨e0, e1, e2, e3, e4, e5, e6, e7, e8, e9, e10, e11⟩ := hagree c
    refine ⟨(h c).1.trans ?_, (h c).2.1.trans ?_, (h c).2.2⟩
    · rw [e0, e1, e2, e3, e4, e5, e6, e7, e8, e9, e10, e11]
      exact Cert.ReferenceIdeal.RefRow.lo_eq _ _ _ _ _ _ _ _ _ _ _ _
    · rw [e0, e1, e2, e3, e4, e5, e6, e7, e8, e9, e10, e11]
      exact Cert.ReferenceIdeal.RefRow.hi_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
